-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x64x256 : Shape := ⟨3, ![4096, 64, 256]⟩
abbrev S768x256 : Shape := ⟨2, ![768, 256]⟩
abbrev S768 : Shape := ⟨1, ![768]⟩
abbrev S256x256 : Shape := ⟨2, ![256, 256]⟩
abbrev S256 : Shape := ⟨1, ![256]⟩
abbrev S_ : Shape := ⟨0, ![]⟩

class Facts : Prop where
  bcast_S_S4096x64x256 : S_.BroadcastsInDim S4096x64x256 (![] : Fin 0 → Fin S4096x64x256.rank)
  reducesTo_S4096x64x256_S_d0_1_2 : S4096x64x256.ReducesTo [0, 1, 2] S_
  h_S_ : 0 < S_.numel
  bcast_S_S768x256 : S_.BroadcastsInDim S768x256 (![] : Fin 0 → Fin S768x256.rank)
  reducesTo_S768x256_S_d0_1 : S768x256.ReducesTo [0, 1] S_
  bcast_S_S768 : S_.BroadcastsInDim S768 (![] : Fin 0 → Fin S768.rank)
  reducesTo_S768_S_d0 : S768.ReducesTo [0] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S4096x64x256 .f32) (main_arg1 : FVec F S768x256 .f32) (main_arg2 : FVec F S768 .f32) (main_arg3 : FVec F S256x256 .f32) (main_arg4 : FVec F S256 .f32) : IVec S_ 1 :=
  let main_v0 : FVec F S4096x64x256 .f32 := Host.absf main_arg0
  let main_cst : FVec F S_ .f32 := constant S_ .f32 0x7F800000#32
  let main_v1 : FVec F S4096x64x256 .f32 := broadcastInDim S4096x64x256 ![] bcast_S_S4096x64x256 main_cst
  let main_v2 : IVec S4096x64x256 1 := cmpf .olt main_v0 main_v1
  let main_c : IVec S_ 1 := constantI S_ 1 1#1
  let main_v3 : IVec S_ 1 := (fun x v => Host.reduce IntOp.andi x v reducesTo_S4096x64x256_S_d0_1_2 h_S_) main_v2 main_c
  let main_v4 : FVec F S768x256 .f32 := Host.absf main_arg1
  let main_cst_0 : FVec F S_ .f32 := constant S_ .f32 0x7F800000#32
  let main_v5 : FVec F S768x256 .f32 := broadcastInDim S768x256 ![] bcast_S_S768x256 main_cst_0
  let main_v6 : IVec S768x256 1 := cmpf .olt main_v4 main_v5
  let main_c_1 : IVec S_ 1 := constantI S_ 1 1#1
  let main_v7 : IVec S_ 1 := (fun x v => Host.reduce IntOp.andi x v reducesTo_S768x256_S_d0_1 h_S_) main_v6 main_c_1
  let main_v8 : IVec S_ 1 := andi main_v3 main_v7
  let main_v9 : FVec F S768 .f32 := Host.absf main_arg2
  let main_cst_2 : FVec F S_ .f32 := constant S_ .f32 0x7F800000#32
  let main_v10 : FVec F S768 .f32 := broadcastInDim S768 ![] bcast_S_S768 main_cst_2
  let main_v11 : IVec S768 1 := cmpf .olt main_v9 main_v10
  let main_c_3 : IVec S_ 1 := constantI S_ 1 1#1
  let main_v12 : IVec S_ 1 := (fun x v => Host.reduce IntOp.andi x v reducesTo_S768_S_d0 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_v13 main_v16
-- ==== Kernel.lean ====
abbrev S4096x64x256 : Shape := ⟨3, ![4096, 64, 256]⟩
abbrev S768x256 : Shape := ⟨2, ![768, 256]⟩
abbrev S768 : Shape := ⟨1, ![768]⟩
abbrev S256x256 : Shape := ⟨2, ![256, 256]⟩
abbrev S256 : Shape := ⟨1, ![256]⟩
abbrev S1x768 : Shape := ⟨2, ![1, 768]⟩
abbrev S1x256 : Shape := ⟨2, ![1, 256]⟩
abbrev S16x64x256 : Shape := ⟨3, ![16, 64, 256]⟩
abbrev S1024x256 : Shape := ⟨2, ![1024, 256]⟩
abbrev S256x768 : Shape := ⟨2, ![256, 768]⟩
abbrev S1024x768 : Shape := ⟨2, ![1024, 768]⟩
abbrev S16x64x64 : Shape := ⟨3, ![16, 64, 64]⟩
abbrev S16x64 : Shape := ⟨2, ![16, 64]⟩
abbrev S16x64x1 : Shape := ⟨3, ![16, 64, 1]⟩

abbrev nBuf : Space → Nat
  | .hbm => 8
  | .vmem => 8
  | .smem => 0
  | _ => 0

abbrev bufTy : (tb : Table) → Fin (tcTables nBuf tb) → BufTy
  | .hbm, ⟨0, _⟩ => ⟨S4096x64x256, .f32⟩
  | .hbm, ⟨1, _⟩ => ⟨S768x256, .f32⟩
  | .hbm, ⟨2, _⟩ => ⟨S768, .f32⟩
  | .hbm, ⟨3, _⟩ => ⟨S256x256, .f32⟩
  | .hbm, ⟨4, _⟩ => ⟨S256, .f32⟩
  | .hbm, ⟨5, _⟩ => ⟨S1x768, .f32⟩
  | .hbm, ⟨6, _⟩ => ⟨S1x256, .f32⟩
  | .hbm, ⟨7, _⟩ => ⟨S4096x64x256, .f32⟩
  | .local _ .vmem, ⟨0, _⟩ => ⟨S16x64x256, .f32⟩
  | .local _ .vmem, ⟨1, _⟩ => ⟨S16x64x256, .f32⟩
  | .local _ .vmem, ⟨2, _⟩ => ⟨S768x256, .f32⟩
  | .local _ .vmem, ⟨3, _⟩ => ⟨S1x768, .f32⟩
  | .local _ .vmem, ⟨4, _⟩ => ⟨S256x256, .f32⟩
  | .local _ .vmem, ⟨5, _⟩ => ⟨S1x256, .f32⟩
  | .local _ .vmem, ⟨6, _⟩ => ⟨S16x64x256, .f32⟩
  | .local _ .vmem, ⟨7, _⟩ => ⟨S16x64x256, .f32⟩
  | _, _ => ⟨S4096x64x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![256], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x64x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S16x64x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S768_S1x768 : S768.ShapeCasts S1x768
  shapeCasts_S256_S1x256 : S256.ShapeCasts S1x256
  inb_S16x64x256_S16x64x256_0_0_0 : ∀ a, (![0, 0, 0] : Fin 3 → Nat) a + S16x64x256.size a ≤ S16x64x256.size a
  h_S16x64x256 : 0 < S16x64x256.numel
  shapeCasts_S16x64x256_S1024x256 : S16x64x256.ShapeCasts S1024x256
  inb_S768x256_S768x256_0_0 : ∀ a, (![0, 0] : Fin 2 → Nat) a + S768x256.size a ≤ S768x256.size a
  h_S768x256 : 0 < S768x256.numel
  inb_S1x768_S1x768_0_0 : ∀ a, (![0, 0] : Fin 2 → Nat) a + S1x768.size a ≤ S1x768.size a
  h_S1x768 : 0 < S1x768.numel
  shapeCasts_S1x768_S1x768 : S1x768.ShapeCasts S1x768
  bitsLt_bf16_f32 : FTy.bits .bf16 < FTy.bits .f32
  transposes_S768x256_p1_0_S256x768 : S768x256.Transposes [1, 0] S256x768
  broadcasts_S1x768_S1024x768 : S1x768.Broadcasts S1024x768
  slices_S1024x768_o0_0_S1024x256 : S1024x768.Slices ![0, 0] S1024x256
  slices_S1024x768_o0_256_S1024x256 : S1024x768.Slices ![0, 256] S1024x256
  slices_S1024x768_o0_512_S1024x256 : S1024x768.Slices ![0, 512] S1024x256
  shapeCasts_S1024x256_S16x64x256 : S1024x256.ShapeCasts S16x64x256
  reduces_S16x64x64_S16x64 : S16x64x64.Reduces [2] S16x64
  shapeCasts_S16x64_S16x64x1 : S16x64.ShapeCasts S16x64x1
  broadcasts_S16x64x1_S16x64x64 : S16x64x1.Broadcasts S16x64x64
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  transposes_S256x256_p1_0_S256x256 : S256x256.Transposes [1, 0] S256x256
  broadcasts_S1x256_S1024x256 : S1x256.Broadcasts S1024x256
  dot_S1024x256_S256x768_S1024x768_1_0_0_1_n_n_wf : DotDims.WF S1024x256 S256x768 S1024x768 [1] [0] [0] [1] [] []
  dot_S16x64x256_S16x64x256_S16x64x64_2_2_1_1_0_0_wf : DotDims.WF S16x64x256 S16x64x256 S16x64x64 [2] [2] [1] [1] [0] [0]
  dot_S16x64x64_S16x64x256_S16x64x256_2_1_1_2_0_0_wf : DotDims.WF S16x64x64 S16x64x256 S16x64x256 [2] [1] [1] [2] [0] [0]
  dot_S1024x256_S256x256_S1024x256_1_0_0_1_n_n_wf : DotDims.WF S1024x256 S256x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x64x256.size a ≤ S4096x64x256.size a
  hwx0_0 : ∀ i : grid0.Coords, EltTy.bits .f32 = 32 ∨ (Rect.block (s := S4096x64x256) S16x64x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x256.size a ≤ S768x256.size a
  hwx0_1 : ∀ i : grid0.Coords, EltTy.bits .f32 = 32 ∨ (Rect.block (s := S768x256) S768x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x768.size a ≤ S1x768.size a
  hwx0_2 : ∀ i : grid0.Coords, EltTy.bits .f32 = 32 ∨ (Rect.block (s := S1x768) S1x768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S16x64x256.size a ≤ S4096x64x256.size a
  hwx0_5 : ∀ i : grid0.Coords, EltTy.bits .f32 = 32 ∨ (Rect.block (s := S4096x64x256) S16x64x256.size (cc0_transform_5 i) (hinb0_5 i)).WholeWords (EltTy.packing .f32)

variable [Facts₀]

def dot_S1024x256_S256x768_S1024x768_1_0_0_1_n_n : DotDims S1024x256 S256x768 S1024x768 where
  lhsContracting := [1]
  rhsContracting := [0]
  lhsNonContracting := [0]
  rhsNonContracting := [1]
  lhsBatch := []
  rhsBatch := []
  wf := dot_S1024x256_S256x768_S1024x768_1_0_0_1_n_n_wf
def dot_S16x64x256_S16x64x256_S16x64x64_2_2_1_1_0_0 : DotDims S16x64x256 S16x64x256 S16x64x64 where
  lhsContracting := [2]
  rhsContracting := [2]
  lhsNonContracting := [1]
  rhsNonContracting := [1]
  lhsBatch := [0]
  rhsBatch := [0]
  wf := dot_S16x64x256_S16x64x256_S16x64x64_2_2_1_1_0_0_wf
def dot_S16x64x64_S16x64x256_S16x64x256_2_1_1_2_0_0 : DotDims S16x64x64 S16x64x256 S16x64x256 where
  lhsContracting := [2]
  rhsContracting := [1]
  lhsNonContracting := [1]
  rhsNonContracting := [2]
  lhsBatch := [0]
  rhsBatch := [0]
  wf := dot_S16x64x64_S16x64x256_S16x64x256_2_1_1_2_0_0_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf

abbrev win0_0 : Pipeline.Window sig grid0 :=
  Pipeline.Window.ofSpec (Memref.whole main_arg0) S16x64x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S768x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S16x64x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4096x64x256 : Shape := ⟨3, ![4096, 64, 256]⟩
abbrev S768x256 : Shape := ⟨2, ![768, 256]⟩
abbrev S768 : Shape := ⟨1, ![768]⟩
abbrev S256x256 : Shape := ⟨2, ![256, 256]⟩
abbrev S256 : Shape := ⟨1, ![256]⟩
abbrev S4096x64x768 : Shape := ⟨3, ![4096, 64, 768]⟩
abbrev S1x1x768 : Shape := ⟨3, ![1, 1, 768]⟩
abbrev S4096x64x64 : Shape := ⟨3, ![4096, 64, 64]⟩
abbrev S_ : Shape := ⟨0, ![]⟩
abbrev S4096x64 : Shape := ⟨2, ![4096, 64]⟩
abbrev S4096x64x1 : Shape := ⟨3, ![4096, 64, 1]⟩
abbrev S1x1x256 : Shape := ⟨3, ![1, 1, 256]⟩

abbrev nBuf : Space → Nat
  | .hbm => 32
  | .vmem => 0
  | .smem => 0
  | _ => 0

abbrev bufTy : (tb : Table) → Fin (tcTables nBuf tb) → BufTy
  | .hbm, ⟨0, _⟩ => ⟨S4096x64x256, .f32⟩
  | .hbm, ⟨1, _⟩ => ⟨S768x256, .f32⟩
  | .hbm, ⟨2, _⟩ => ⟨S768, .f32⟩
  | .hbm, ⟨3, _⟩ => ⟨S256x256, .f32⟩
  | .hbm, ⟨4, _⟩ => ⟨S256, .f32⟩
  | .hbm, ⟨5, _⟩ => ⟨S4096x64x768, .f32⟩
  | .hbm, ⟨6, _⟩ => ⟨S1x1x768, .f32⟩
  | .hbm, ⟨7, _⟩ => ⟨S4096x64x768, .f32⟩
  | .hbm, ⟨8, _⟩ => ⟨S4096x64x768, .f32⟩
  | .hbm, ⟨9, _⟩ => ⟨S4096x64x256, .f32⟩
  | .hbm, ⟨10, _⟩ => ⟨S4096x64x256, .f32⟩
  | .hbm, ⟨11, _⟩ => ⟨S4096x64x256, .f32⟩
  | .hbm, ⟨12, _⟩ => ⟨S4096x64x64, .f32⟩
  | .hbm, ⟨13, _⟩ => ⟨S_, .f32⟩
  | .hbm, ⟨14, _⟩ => ⟨S4096x64, .f32⟩
  | .hbm, ⟨15, _⟩ => ⟨S_, .f32⟩
  | .hbm, ⟨16, _⟩ => ⟨S4096x64, .f32⟩
  | .hbm, ⟨17, _⟩ => ⟨S4096x64, .f32⟩
  | .hbm, ⟨18, _⟩ => ⟨S4096x64x1, .f32⟩
  | .hbm, ⟨19, _⟩ => ⟨S4096x64x64, .f32⟩
  | .hbm, ⟨20, _⟩ => ⟨S4096x64x64, .f32⟩
  | .hbm, ⟨21, _⟩ => ⟨S4096x64x64, .f32⟩
  | .hbm, ⟨22, _⟩ => ⟨S_, .f32⟩
  | .hbm, ⟨23, _⟩ => ⟨S4096x64, .f32⟩
  | .hbm, ⟨24, _⟩ => ⟨S4096x64x1, .f32⟩
  | .hbm, ⟨25, _⟩ => ⟨S4096x64x64, .f32⟩
  | .hbm, ⟨26, _⟩ => ⟨S4096x64x64, .f32⟩
  | .hbm, ⟨27, _⟩ => ⟨S4096x64x256, .f32⟩
  | .hbm, ⟨28, _⟩ => ⟨S4096x64x256, .f32⟩
  | .hbm, ⟨29, _⟩ => ⟨S1x1x256, .f32⟩
  | .hbm, ⟨30, _⟩ => ⟨S4096x64x256, .f32⟩
  | .hbm, ⟨31, _⟩ => ⟨S4096x64x256, .f32⟩
  | _, _ => ⟨S4096x64x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]

class Facts₀ : Prop where
  bcast_S768_S1x1x768_2 : S768.BroadcastsInDim S1x1x768 (![2] : Fin 1 → Fin S1x1x768.rank)
  bcast_S1x1x768_S4096x64x768_0_1_2 : S1x1x768.BroadcastsInDim S4096x64x768 (![0, 1, 2] : Fin 3 → Fin S4096x64x768.rank)
  slices_S4096x64x768_S4096x64x256_0_0_0 : S4096x64x768.Slices ![0, 0, 0] S4096x64x256
  slices_S4096x64x768_S4096x64x256_0_0_256 : S4096x64x768.Slices ![0, 0, 256] S4096x64x256
  slices_S4096x64x768_S4096x64x256_0_0_512 : S4096x64x768.Slices ![0, 0, 512] S4096x64x256
  reducesTo_S4096x64x64_S4096x64_d2 : S4096x64x64.ReducesTo [2] S4096x64
  h_S_ : 0 < S_.numel
  bcast_S_S4096x64 : S_.BroadcastsInDim S4096x64 (![] : Fin 0 → Fin S4096x64.rank)
  bcast_S4096x64_S4096x64x1_0_1 : S4096x64.BroadcastsInDim S4096x64x1 (![0, 1] : Fin 2 → Fin S4096x64x1.rank)
  bcast_S4096x64x1_S4096x64x64_0_1_2 : S4096x64x1.BroadcastsInDim S4096x64x64 (![0, 1, 2] : Fin 3 → Fin S4096x64x64.rank)
  bcast_S256_S1x1x256_2 : S256.BroadcastsInDim S1x1x256 (![2] : Fin 1 → Fin S1x1x256.rank)
  bcast_S1x1x256_S4096x64x256_0_1_2 : S1x1x256.BroadcastsInDim S4096x64x256 (![0, 1, 2] : Fin 3 → Fin S4096x64x256.rank)
  dot_S4096x64x256_S768x256_S4096x64x768_2_1_01_0_n_n_wf : DotDims.WF S4096x64x256 S768x256 S4096x64x768 [2] [1] [0, 1] [0] [] []
  dot_S4096x64x256_S4096x64x256_S4096x64x64_2_2_1_1_0_0_wf : DotDims.WF S4096x64x256 S4096x64x256 S4096x64x64 [2] [2] [1] [1] [0] [0]
  dot_S4096x64x64_S4096x64x256_S4096x64x256_2_1_1_2_0_0_wf : DotDims.WF S4096x64x64 S4096x64x256 S4096x64x256 [2] [1] [1] [2] [0] [0]
  dot_S4096x64x256_S256x256_S4096x64x256_2_1_01_0_n_n_wf : DotDims.WF S4096x64x256 S256x256 S4096x64x256 [2] [1] [0, 1] [0] [] []

variable [Facts₀]

def dot_S4096x64x256_S768x256_S4096x64x768_2_1_01_0_n_n : DotDims S4096x64x256 S768x256 S4096x64x768 where
  lhsContracting := [2]
  rhsContracting := [1]
  lhsNonContracting := [0, 1]
  rhsNonContracting := [0]
  lhsBatch := []
  rhsBatch := []
  wf := dot_S4096x64x256_S768x256_S4096x64x768_2_1_01_0_n_n_wf
def dot_S4096x64x256_S4096x64x256_S4096x64x64_2_2_1_1_0_0 : DotDims S4096x64x256 S4096x64x256 S4096x64x64 where
  lhsContracting := [2]
  rhsContracting := [2]
  lhsNonContracting := [1]
  rhsNonContracting := [1]
  lhsBatch := [0]
  rhsBatch := [0]
  wf := dot_S4096x64x256_S4096x64x256_S4096x64x64_2_2_1_1_0_0_wf
def dot_S4096x64x64_S4096x64x256_S4096x64x256_2_1_1_2_0_0 : DotDims S4096x64x64 S4096x64x256 S4096x64x256 where
  lhsContracting := [2]
  rhsContracting := [1]
  lhsNonContracting := [1]
  rhsNonContracting := [2]
  lhsBatch := [0]
  rhsBatch := [0]
  wf := dot_S4096x64x64_S4096x64x256_S4096x64x256_2_1_1_2_0_0_wf
def dot_S4096x64x256_S256x256_S4096x64x256_2_1_01_0_n_n : DotDims S4096x64x256 S256x256 S4096x64x256 where
  lhsContracting := [2]
  rhsContracting := [1]
  lhsNonContracting := [0, 1]
  rhsNonContracting := [0]
  lhsBatch := []
  rhsBatch := []
  wf := dot_S4096x64x256_S256x256_S4096x64x256_2_1_01_0_n_n_wf

class Facts : Prop extends Facts₀ where

variable [Facts]
-- ==== Proof.Attention.lean ====
/-
  Windowed self-attention on ONE window, as functions over the extended reals.

  A window is 64 tokens of 256 features.  The fused linear layer sends token `t` to 768 features
  `(∑ d, x t d * w e d) + b e`; its three column groups of 256 are the queries, the keys and the values.
  The score of query `q` against key `k` is the inner product of their feature rows; a row of scores is
  turned into weights by the softmax written as the programs write it (subtract the row's maximum, taken
  from minus infinity, exponentiate, divide by the row's sum); the context of `q` is the weighted sum of
  the value rows, and the result is the context through the second linear layer.

  The whole array is 4096 independent windows: entry `(n, q, e)` of the result depends on the tokens of
  window `n` only, which is what lets a block of 16 windows be computed by itself.
-/
import Idealize.ShloMosaic.PureOps.Ideal.Laws
import Idealize.ShloMosaic.Lib.ValueIdx

noncomputable section

namespace Cert.WindowAttention

open Idealize.ShloMosaic Idealize.ShloMosaic.ValueIdx

/-- Column `d` of the query group, of the key group and of the value group among the 768 fused features. -/
def colQ (d : Fin 256) : Fin 768 := ⟨d.val, by have := d.isLt; omega⟩
def colK (d : Fin 256) : Fin 768 := ⟨256 + d.val, by have := d.isLt; omega⟩
def colV (d : Fin 256) : Fin 768 := ⟨512 + d.val, by have := d.isLt; omega⟩

/-- Minus infinity as the programs spell it: the f32 word `0xFF800000`. -/
def negInf : EReal := Ideal.ofBits .f32 0xFF800000#32

section Window
variable (x : Fin 64 → Fin 256 → EReal) (w : Fin 768 → Fin 256 → EReal) (b : Fin 768 → EReal)
  (pw : Fin 256 → Fin 256 → EReal) (pb : Fin 256 → EReal)

/-- The fused linear layer: feature `e` of token `t`. -/
def qkv (t : Fin 64) (e : Fin 768) : EReal := (∑ d : Fin 256, x t d * w e d) + b e

/-- The score of query token `q` against key token `k`. -/
def score (q k : Fin 64) : EReal := ∑ d : Fin 256, qkv x w b q (colQ d) * qkv x w b k (colK d)

/-- The maximum of row `q` of the scores, folded from minus infinity (and once more against it). -/
def rowMax (q : Fin 64) : EReal :=
  max negInf ((Finset.univ : Finset (Fin 64)).fold max negInf (fun k => score x w b q k))

/-- The unnormalised softmax weight. -/
def weight (q k : Fin 64) : EReal := Ideal.exp (score x w b q k - rowMax x w b q)

/-- The softmax denominator of row `q`. -/
def denom (q : Fin 64) : EReal := ∑ k : Fin 64, weight x w b q k

/-- The attention weight of key `k` for query `q`. -/
def attn (q k : Fin 64) : EReal := Ideal.div (weight x w b q k) (denom x w b q)

/-- The context of query `q`: the attention-weighted sum of the value rows. -/
def ctx (q : Fin 64) (d : Fin 256) : EReal := ∑ k : Fin 64, attn x w b q k * qkv x w b k (colV d)

/-- The result: the context through the output projection. -/
def out (q : Fin 64) (e : Fin 256) : EReal := (∑ d : Fin 256, ctx x w b q d * pw e d) + pb e

end Window

/-- The whole result array as one function of the argument arrays: entry `(n, q, e)` is window `n`'s
    attention result at `(q, e)`. -/
def G (X : (⟨3, ![4096, 64, 256]⟩ : Shape).Idx → EReal) (W : (⟨2, ![768, 256]⟩ : Shape).Idx → EReal)
    (B : (⟨1, ![768]⟩ : Shape).Idx → EReal) (PW : (⟨2, ![256, 256]⟩ : Shape).Idx → EReal)
    (PB : (⟨1, ![256]⟩ : Shape).Idx → EReal) : (⟨3, ![4096, 64, 256]⟩ : Shape).Idx → EReal :=
  fun i => out (fun t d => X (ix3 (i 0) t d)) (fun e d => W (ix2 e d)) (fun e => B (ix1 e))
    (fun e d => PW (ix2 e d)) (fun e => PB (ix1 e)) (i 1) (i 2)

end Cert.WindowAttention

end
-- ==== Proof.Reference.lean ====
/-
  The reference computes windowed attention: each stage of its program, read at an index, is the
  corresponding quantity of `Attention.lean` for the window the index lies in.

  The reference works on all 4096 windows at once, but every operation it applies keeps the window
  coordinate `n` fixed: the fused linear layer contracts features, the two batched products contract
  features and keys with `n` as the batch coordinate, the softmax reduces over keys.  So stage by stage
  the value at `(n, …)` is a function of window `n`'s tokens `fun t d => X (n, t, d)` alone.
-/
import proofs.«134024_j54168127537767_1_alg».proof.Proof.Gen.ReferenceIdeal.Read
import proofs.«134024_j54168127537767_1_alg».proof.Proof.Attention

noncomputable section

namespace Cert.WindowAttention.Reference

open Cert.ReferenceIdeal Cert.ReferenceIdeal.Gen Cert.ReferenceIdeal.Read
open Idealize.ShloMosaic Idealize.ShloMosaic.ValueIdx Cert.WindowAttention

variable (X : (⟨S4096x64x256, .f32⟩ : BufTy).Contents (Elt Ideal)) (W : (⟨S768x256, .f32⟩ : BufTy).Contents (Elt Ideal))
  (B : (⟨S768, .f32⟩ : BufTy).Contents (Elt Ideal)) (PW : (⟨S256x256, .f32⟩ : BufTy).Contents (Elt Ideal))
  (PB : (⟨S256, .f32⟩ : BufTy).Contents (Elt Ideal))

/-- Window `n`'s tokens, and the weights and biases as plain functions of their coordinates. -/
abbrev win (n : Fin 4096) : Fin 64 → Fin 256 → EReal := fun t d => X (ix3 n t d)
abbrev wq : Fin 768 → Fin 256 → EReal := fun e d => W (ix2 e d)
abbrev bq : Fin 768 → EReal := fun e => B (ix1 e)
abbrev wo : Fin 256 → Fin 256 → EReal := fun e d => PW (ix2 e d)
abbrev bo : Fin 256 → EReal := fun e => PB (ix1 e)

/-- The fused linear layer plus its bias at `(n, t, e)`. -/
theorem qkv_at (n : Fin 4096) (t : Fin 64) (e : Fin 768) :
    val_main_v3 (F := Ideal) X W B (ix3 n t e) = qkv (win X n) (wq W) (bq B) t e := by
  rw [val_main_v3_apply, val_main_v0_apply, val_main_v2_apply, val_main_v1_apply]
  have e1 : ∀ k : Fin 256, lidx_main_v0 (ix3 n t e) k = ix3 n t k := fun k => funext fun a => Fin.ext (by
    match a with | ⟨0, _⟩ => rfl | ⟨1, _⟩ => rfl | ⟨2, _⟩ => rfl)
  have e2 : ∀ k : Fin 256, ridx_main_v0 (ix3 n t e) k = ix2 e k := fun k => funext fun a => Fin.ext (by
    match a with | ⟨0, _⟩ => rfl | ⟨1, _⟩ => rfl)
  have e3 : idx_main_v1 (idx_main_v2 (ix3 n t e)) = ix1 e := funext fun a => Fin.ext (by
    match a with | ⟨0, _⟩ => rfl)
  simp only [e1, e2, e3]
  rfl

/-- The three column groups of the fused features. -/
theorem q_at (n : Fin 4096) (t : Fin 64) (d : Fin 256) :
    val_main_v4 (F := Ideal) X W B (ix3 n t d) = qkv (win X n) (wq W) (bq B) t (colQ d) := by
  rw [val_main_v4_apply]
  have e1 : idx_main_v4 (ix3 n t d) = ix3 n t (colQ d) := funext fun a => Fin.ext (by
    match a with | ⟨0, _⟩ => rfl | ⟨1, _⟩ => rfl | ⟨2, _⟩ => rfl)
  rw [e1, qkv_at]

theorem k_at (n : Fin 4096) (t : Fin 64) (d : Fin 256) :
    val_main_v5 (F := Ideal) X W B (ix3 n t d) = qkv (win X n) (wq W) (bq B) t (colK d) := by
  rw [val_main_v5_apply]
  have e1 : idx_main_v5 (ix3 n t d) = ix3 n t (colK d) := funext fun a => Fin.ext (by
    match a with | ⟨0, _⟩ => rfl | ⟨1, _⟩ => rfl | ⟨2, _⟩ => rfl)
  rw [e1, qkv_at]

theorem v_at (n : Fin 4096) (t : Fin 64) (d : Fin 256) :
    val_main_v6 (F := Ideal) X W B (ix3 n t d) = qkv (win X n) (wq W) (bq B) t (colV d) := by
  rw [val_main_v6_apply]
  have e1 : idx_main_v6 (ix3 n t d) = ix3 n t (colV d) := funext fun a => Fin.ext (by
    match a with | ⟨0, _⟩ => rfl | ⟨1, _⟩ => rfl | ⟨2, _⟩ => rfl)
  rw [e1, qkv_at]

/-- The batched product of queries and keys at `(n, q, k)`. -/
theorem score_at (n : Fin 4096) (q k : Fin 64) :
    val_main_v7 (F := Ideal) X W B (ix3 n q k) = score (win X n) (wq W) (bq B) q k := by
  rw [val_main_v7_apply]
  unfold score
  refine Finset.sum_congr rfl fun d _ => ?_
  have e1 : lidx_main_v7 (ix3 n q k) d = ix3 n q d := funext fun a => Fin.ext (by
    match a with | ⟨0, _⟩ => rfl | ⟨1, _⟩ => rfl | ⟨2, _⟩ => rfl)
  have e2 : ridx_main_v7 (ix3 n q k) d = ix3 n k d := funext fun a => Fin.ext (by
    match a with | ⟨0, _⟩ => rfl | ⟨1, _⟩ => rfl | ⟨2, _⟩ => rfl)
  rw [e1, e2, q_at, k_at]

/-- The reduced index `(n, q)` with key `k` put back on the last axis is `(n, q, k)`. -/
theorem lift_keys (h : S4096x64x64.Reduces [2] S4096x64) (n : Fin 4096) (q : Fin 64) (k : Fin (S4096x64x64.size 2)) :
    h.lift (ix2 n q) k = ix3 n q (⟨k.val, k.isLt⟩ : Fin 64) := by
  funext c; apply Fin.ext
  match c with | ⟨0, _⟩ => rfl | ⟨1, _⟩ => rfl | ⟨2, _⟩ => rfl

/-- The row maximum: the host's max-reduce over keys from minus infinity, then the maximum with minus infinity. -/
theorem rowMax_at (n : Fin 4096) (q : Fin 64) :
    val_main_v10 (F := Ideal) X W B (ix2 n q) = rowMax (win X n) (wq W) (bq B) q := by
  rw [val_main_v10_apply, val_main_v9_apply, val_main_cst_0_apply]
  unfold val_main_v8
  have h : S4096x64x64.Reduces [2] S4096x64 := by decide
  rw [Host.reduce_eq_fold_single FloatOps.maximumf _ _ reducesTo_S4096x64x64_S4096x64_d2 h h_S_]
  have hf : (val_main_v7 (F := Ideal) X W B ∘ h.lift (ix2 n q)) = fun k : Fin 64 => score (win X n) (wq W) (bq B) q k :=
    funext fun k => by
      show val_main_v7 (F := Ideal) X W B (h.lift (ix2 n q) k) = _
      rw [lift_keys h n q k]; exact score_at X W B n q k
  rw [hf]
  rfl

/-- The unnormalised softmax weight at `(n, q, k)`. -/
theorem weight_at (n : Fin 4096) (q k : Fin 64) :
    val_main_v14 (F := Ideal) X W B (ix3 n q k) = weight (win X n) (wq W) (bq B) q k := by
  rw [val_main_v14_apply, val_main_v13_apply, val_main_v12_apply, val_main_v11_apply]
  have e1 : idx_main_v11 (idx_main_v12 (ix3 n q k)) = ix2 n q := funext fun a => Fin.ext (by
    match a with | ⟨0, _⟩ => rfl | ⟨1, _⟩ => rfl)
  rw [e1, score_at, rowMax_at]
  rfl

/-- The softmax denominator at `(n, q)`: the host's sum over keys from zero. -/
theorem denom_at (n : Fin 4096) (q : Fin 64) :
    val_main_v15 (F := Ideal) X W B (ix2 n q) = denom (win X n) (wq W) (bq B) q := by
  rw [val_main_v15_apply, val_main_cst_1_apply]
  show Ideal.ofBits .f32 0x00000000#32 + _ = _
  rw [Ideal.ofBits_zero_f32, zero_add]
  unfold denom
  refine Finset.sum_congr rfl fun k _ => ?_
  have e1 : idx_main_v15 (ix2 n q) k = ix3 n q k := funext fun a => Fin.ext (by
    match a with | ⟨0, _⟩ => rfl | ⟨1, _⟩ => rfl | ⟨2, _⟩ => rfl)
  rw [e1, weight_at]

/-- The attention weight at `(n, q, k)`. -/
theorem attn_at (n : Fin 4096) (q k : Fin 64) :
    val_main_v18 (F := Ideal) X W B (ix3 n q k) = attn (win X n) (wq W) (bq B) q k := by
  rw [val_main_v18_apply, val_main_v17_apply, val_main_v16_apply]
  have e1 : idx_main_v16 (idx_main_v17 (ix3 n q k)) = ix2 n q := funext fun a => Fin.ext (by
    match a with | ⟨0, _⟩ => rfl | ⟨1, _⟩ => rfl)
  rw [e1, weight_at, denom_at]
  rfl

/-- The context at `(n, q, d)`: the batched product of attention weights and values. -/
theorem ctx_at (n : Fin 4096) (q : Fin 64) (d : Fin 256) :
    val_main_v19 (F := Ideal) X W B (ix3 n q d) = ctx (win X n) (wq W) (bq B) q d := by
  rw [val_main_v19_apply]
  unfold ctx
  refine Finset.sum_congr rfl fun k _ => ?_
  have e1 : lidx_main_v19 (ix3 n q d) k = ix3 n q k := funext fun a => Fin.ext (by
    match a with | ⟨0, _⟩ => rfl | ⟨1, _⟩ => rfl | ⟨2, _⟩ => rfl)
  have e2 : ridx_main_v19 (ix3 n q d) k = ix3 n k d := funext fun a => Fin.ext (by
    match a with | ⟨0, _⟩ => rfl | ⟨1, _⟩ => rfl | ⟨2, _⟩ => rfl)
  rw [e1, e2, attn_at, v_at]

/-- The result at `(n, q, e)`: the output projection of the context plus its bias. -/
theorem out_at (n : Fin 4096) (q : Fin 64) (e : Fin 256) :
    val_main_v23 (F := Ideal) X W B PW PB (ix3 n q e)
      = out (win X n) (wq W) (bq B) (wo PW) (bo PB) q e := by
  rw [val_main_v23_apply, val_main_v20_apply, val_main_v22_apply, val_main_v21_apply]
  have e1 : ∀ k : Fin 256, lidx_main_v20 (ix3 n q e) k = ix3 n q k := fun k => funext fun a => Fin.ext (by
    match a with | ⟨0, _⟩ => rfl | ⟨1, _⟩ => rfl | ⟨2, _⟩ => rfl)
  have e2 : ∀ k : Fin 256, ridx_main_v20 (ix3 n q e) k = ix2 e k := fun k => funext fun a => Fin.ext (by
    match a with | ⟨0, _⟩ => rfl | ⟨1, _⟩ => rfl)
  have e3 : idx_main_v21 (idx_main_v22 (ix3 n q e)) = ix1 e := funext fun a => Fin.ext (by
    match a with | ⟨0, _⟩ => rfl)
  simp only [e1, e2, e3, ctx_at]
  rfl

/-- The reference's result array is `G` of its arguments. -/
theorem result_eq_G : val_main_v23 (F := Ideal) X W B PW PB = G X W B PW PB := by
  funext i
  rw [eq_ix3 i]
  exact out_at X W B PW PB (i 0) (i 1) (i 2)

end Cert.WindowAttention.Reference

end
-- ==== Proof.BlockOps.lean ====
/-
  The kernel's vector operations on a block of 16 windows, each read at an index.

  Inside the kernel a block of 16 windows is handled both as a [16, 64, 256] array (window, token, feature)
  and as a [1024, 256] matrix of rows; row `64 b + t` of the matrix is token `t` of window `b`.  The lemmas
  here read, at explicit coordinates, the reshapes between the two forms, the transposes of the weight
  matrices, the column slices that cut queries, keys and values out of the fused features, the bias
  broadcasts, the keep-dimension broadcast of a per-row quantity along the key axis, the four matrix
  products as plain sums over the contracted coordinate, and the two row reductions of the softmax.
-/
import proofs.«134024_j54168127537767_1_alg».proof.Proof.Gen.KernelIdeal
import proofs.«134024_j54168127537767_1_alg».proof.Proof.Attention
import Idealize.ShloMosaic.Lib.Pipeline.Value
import Idealize.ShloMosaic.Lib.ValueIdx
import Idealize.ShloMosaic.PureOps.Ideal.Laws

noncomputable section

namespace Cert.WindowAttention.Block

open Cert.KernelIdeal Cert.KernelIdeal.Gen
open Idealize.ShloMosaic Idealize.ShloMosaic.ValueIdx Cert.WindowAttention

/-- Row `64 b + t` of the block's 1024 rows: token `t` of the block's window `b`. -/
def row (b : Fin 16) (t : Fin 64) : Fin 1024 := ⟨b.val * 64 + t.val, by have := b.isLt; have := t.isLt; omega⟩

/-! ## Layout operations -/

section Layout
variable {α : Type}

/-- Windows × tokens flattened to rows. -/
theorem flatten_at (v : S16x64x256.Idx → α) (h : S16x64x256.ShapeCasts S1024x256) (b : Fin 16) (t : Fin 64) (d : Fin 256) :
    shapeCast S1024x256 v h (ix2 (row b t) d) = v (ix3 b t d) :=
  shapeCast_apply v h (ix2 (row b t) d) (ix3 b t d) (by
    rw [Shape.rowMajor_val_three, Shape.rowMajor_val_two]
    show (b.val * 64 + t.val) * 256 + d.val = (b.val * 64 + t.val) * 256 + d.val
    rfl)

/-- Rows unflattened to windows × tokens. -/
theorem unflatten_at (v : S1024x256.Idx → α) (h : S1024x256.ShapeCasts S16x64x256) (b : Fin 16) (t : Fin 64) (d : Fin 256) :
    shapeCast S16x64x256 v h (ix3 b t d) = v (ix2 (row b t) d) :=
  shapeCast_apply v h (ix3 b t d) (ix2 (row b t) d) (by
    rw [Shape.rowMajor_val_two, Shape.rowMajor_val_three]
    show (b.val * 64 + t.val) * 256 + d.val = (b.val * 64 + t.val) * 256 + d.val
    rfl)

/-- The transposed fused weight matrix. -/
theorem transposeFused_at (v : S768x256.Idx → α) (h : S768x256.Transposes [1, 0] S256x768) (k : Fin 256) (e : Fin 768) :
    transpose S256x768 [1, 0] v h (ix2 k e) = v (ix2 e k) :=
  transpose_apply [1, 0] v h (ix2 k e) (ix2 e k) (fun a => match a with | ⟨0, _⟩ => rfl | ⟨1, _⟩ => rfl)

/-- The transposed projection matrix. -/
theorem transposeProj_at (v : S256x256.Idx → α) (h : S256x256.Transposes [1, 0] S256x256) (k : Fin 256) (e : Fin 256) :
    transpose S256x256 [1, 0] v h (ix2 k e) = v (ix2 e k) :=
  transpose_apply [1, 0] v h (ix2 k e) (ix2 e k) (fun a => match a with | ⟨0, _⟩ => rfl | ⟨1, _⟩ => rfl)

/-- The fused bias, one row repeated down the 1024 rows. -/
theorem biasFused_at (v : S1x768.Idx → α) (h : S1x768.Broadcasts S1024x768) (r : Fin 1024) (e : Fin 768) :
    broadcastTo S1024x768 v h (ix2 r e) = v (ix2 (0 : Fin 1) e) :=
  broadcastTo_apply v h (ix2 r e) (ix2 (0 : Fin 1) e) (fun a => match a with
    | ⟨0, _⟩ => by show 0 = if (1 : Nat) = 1 then 0 else r.val; rw [if_pos rfl]
    | ⟨1, _⟩ => by show e.val = if (768 : Nat) = 1 then 0 else e.val; rw [if_neg (by decide)])

/-- The projection bias, one row repeated down the 1024 rows. -/
theorem biasProj_at (v : S1x256.Idx → α) (h : S1x256.Broadcasts S1024x256) (r : Fin 1024) (e : Fin 256) :
    broadcastTo S1024x256 v h (ix2 r e) = v (ix2 (0 : Fin 1) e) :=
  broadcastTo_apply v h (ix2 r e) (ix2 (0 : Fin 1) e) (fun a => match a with
    | ⟨0, _⟩ => by show 0 = if (1 : Nat) = 1 then 0 else r.val; rw [if_pos rfl]
    | ⟨1, _⟩ => by show e.val = if (256 : Nat) = 1 then 0 else e.val; rw [if_neg (by decide)])

/-- The query, key and value column groups of the fused features. -/
theorem sliceQ_at (v : S1024x768.Idx → α) (h : S1024x768.Slices ![0, 0] S1024x256) (r : Fin 1024) (d : Fin 256) :
    extractStridedSlice S1024x256 ![0, 0] v h (ix2 r d) = v (ix2 r (colQ d)) :=
  extractStridedSlice_apply ![0, 0] v h (ix2 r d) (ix2 r (colQ d)) (fun a => match a with
    | ⟨0, _⟩ => by show r.val = 0 + r.val; omega
    | ⟨1, _⟩ => by show d.val = 0 + d.val; omega)

theorem sliceK_at (v : S1024x768.Idx → α) (h : S1024x768.Slices ![0, 256] S1024x256) (r : Fin 1024) (d : Fin 256) :
    extractStridedSlice S1024x256 ![0, 256] v h (ix2 r d) = v (ix2 r (colK d)) :=
  extractStridedSlice_apply ![0, 256] v h (ix2 r d) (ix2 r (colK d)) (fun a => match a with
    | ⟨0, _⟩ => by show r.val = 0 + r.val; omega
    | ⟨1, _⟩ => by show 256 + d.val = 256 + d.val; rfl)

theorem sliceV_at (v : S1024x768.Idx → α) (h : S1024x768.Slices ![0, 512] S1024x256) (r : Fin 1024) (d : Fin 256) :
    extractStridedSlice S1024x256 ![0, 512] v h (ix2 r d) = v (ix2 r (colV d)) :=
  extractStridedSlice_apply ![0, 512] v h (ix2 r d) (ix2 r (colV d)) (fun a => match a with
    | ⟨0, _⟩ => by show r.val = 0 + r.val; omega
    | ⟨1, _⟩ => by show 512 + d.val = 512 + d.val; rfl)

/-- A per-(window, query) quantity given a unit key axis and repeated along the keys. -/
theorem alongKeys_at (v : S16x64.Idx → α) (h1 : S16x64.ShapeCasts S16x64x1) (h2 : S16x64x1.Broadcasts S16x64x64)
    (b : Fin 16) (q k : Fin 64) :
    broadcastTo S16x64x64 (shapeCast S16x64x1 v h1) h2 (ix3 b q k) = v (ix2 b q) :=
  (broadcastTo_apply (shapeCast S16x64x1 v h1) h2 (ix3 b q k) (ix3 b q (0 : Fin 1)) (fun a => match a with
    | ⟨0, _⟩ => by show b.val = if (16 : Nat) = 1 then 0 else b.val; rw [if_neg (by decide)]
    | ⟨1, _⟩ => by show q.val = if (64 : Nat) = 1 then 0 else q.val; rw [if_neg (by decide)]
    | ⟨2, _⟩ => by show 0 = if (1 : Nat) = 1 then 0 else k.val; rw [if_pos rfl])).trans
  (shapeCast_apply v h1 (ix3 b q (0 : Fin 1)) (ix2 b q) (by
    rw [Shape.rowMajor_val_two, Shape.rowMajor_val_three]
    show b.val * 64 + q.val = (b.val * 64 + q.val) * 1 + 0
    omega))

end Layout

/-! ## The four matrix products, as sums over the contracted coordinate -/

theorem lhs_dot_S1024x256_S256x768_S1024x768_1_0_0_1_n_n_0 (i : S1024x768.Idx) (q : dot_S1024x256_S256x768_S1024x768_1_0_0_1_n_n.contr.Idx) :
    (dot_S1024x256_S256x768_S1024x768_1_0_0_1_n_n.lhsIdx i q 0).val = (i 0).val := by
  unfold DotDims.lhsIdx
  rw [dif_neg (show ¬(0 : Fin S1024x256.rank) ∈ dot_S1024x256_S256x768_S1024x768_1_0_0_1_n_n.lhsBatch by decide), dif_pos (show (0 : Fin S1024x256.rank) ∈ dot_S1024x256_S256x768_S1024x768_1_0_0_1_n_n.lhsNonContracting by decide)]
  rfl
theorem lhs_dot_S1024x256_S256x768_S1024x768_1_0_0_1_n_n_1 (i : S1024x768.Idx) (q : dot_S1024x256_S256x768_S1024x768_1_0_0_1_n_n.contr.Idx) :
    (dot_S1024x256_S256x768_S1024x768_1_0_0_1_n_n.lhsIdx i q 1).val = (q ⟨0, by decide⟩).val :=
  dot_S1024x256_S256x768_S1024x768_1_0_0_1_n_n.lhsIdx_val_of_single rfl i q
theorem rhs_dot_S1024x256_S256x768_S1024x768_1_0_0_1_n_n_0 (i : S1024x768.Idx) (q : dot_S1024x256_S256x768_S1024x768_1_0_0_1_n_n.contr.Idx) :
    (dot_S1024x256_S256x768_S1024x768_1_0_0_1_n_n.rhsIdx i q 0).val = (q ⟨0, by decide⟩).val :=
  dot_S1024x256_S256x768_S1024x768_1_0_0_1_n_n.rhsIdx_val_of_single rfl i q
theorem rhs_dot_S1024x256_S256x768_S1024x768_1_0_0_1_n_n_1 (i : S1024x768.Idx) (q : dot_S1024x256_S256x768_S1024x768_1_0_0_1_n_n.contr.Idx) :
    (dot_S1024x256_S256x768_S1024x768_1_0_0_1_n_n.rhsIdx i q 1).val = (i 1).val := by
  unfold DotDims.rhsIdx
  rw [dif_neg (show ¬(1 : Fin S256x768.rank) ∈ dot_S1024x256_S256x768_S1024x768_1_0_0_1_n_n.rhsBatch by decide), dif_pos (show (1 : Fin S256x768.rank) ∈ dot_S1024x256_S256x768_S1024x768_1_0_0_1_n_n.rhsNonContracting by decide)]
  rfl

/-- Rows times the transposed fused weights. -/
theorem fusedProduct_at (l : FVec Ideal S1024x256 .bf16) (r : FVec Ideal S256x768 .bf16) (i0 : Fin 1024) (e : Fin 768) :
    matmul dot_S1024x256_S256x768_S1024x768_1_0_0_1_n_n none l r (constant (F := Ideal) S1024x768 .f32 0x00000000#32) (ix2 i0 e)
      = ∑ k : Fin 256, l (ix2 i0 k) * r (ix2 k e) := by
  refine (Ideal.matmul_constant_zero_apply dot_S1024x256_S256x768_S1024x768_1_0_0_1_n_n none l r (ix2 i0 e)).trans ?_
  rw [← Equiv.sum_comp (ValueIdx.contrEquiv1 dot_S1024x256_S256x768_S1024x768_1_0_0_1_n_n 256 rfl rfl).symm]
  refine Finset.sum_congr rfl fun k _ => ?_
  have hk := ValueIdx.contrEquiv1_symm_val dot_S1024x256_S256x768_S1024x768_1_0_0_1_n_n 256 rfl rfl k
  have el : dot_S1024x256_S256x768_S1024x768_1_0_0_1_n_n.lhsIdx (ix2 i0 e) ((ValueIdx.contrEquiv1 dot_S1024x256_S256x768_S1024x768_1_0_0_1_n_n 256 rfl rfl).symm k) = ix2 i0 k := funext fun a => Fin.ext (by
    match a with
    | ⟨0, _⟩ => exact lhs_dot_S1024x256_S256x768_S1024x768_1_0_0_1_n_n_0 _ _
    | ⟨1, _⟩ => exact (lhs_dot_S1024x256_S256x768_S1024x768_1_0_0_1_n_n_1 _ _).trans hk)
  have er : dot_S1024x256_S256x768_S1024x768_1_0_0_1_n_n.rhsIdx (ix2 i0 e) ((ValueIdx.contrEquiv1 dot_S1024x256_S256x768_S1024x768_1_0_0_1_n_n 256 rfl rfl).symm k) = ix2 k e := funext fun a => Fin.ext (by
    match a with
    | ⟨0, _⟩ => exact (rhs_dot_S1024x256_S256x768_S1024x768_1_0_0_1_n_n_0 _ _).trans hk
    | ⟨1, _⟩ => exact rhs_dot_S1024x256_S256x768_S1024x768_1_0_0_1_n_n_1 _ _)
  rw [el, er]

theorem lhs_dot_S16x64x256_S16x64x256_S16x64x64_2_2_1_1_0_0_0 (i : S16x64x64.Idx) (q : dot_S16x64x256_S16x64x256_S16x64x64_2_2_1_1_0_0.contr.Idx) :
    (dot_S16x64x256_S16x64x256_S16x64x64_2_2_1_1_0_0.lhsIdx i q 0).val = (i 0).val := by
  unfold DotDims.lhsIdx
  rw [dif_pos (show (0 : Fin S16x64x256.rank) ∈ dot_S16x64x256_S16x64x256_S16x64x64_2_2_1_1_0_0.lhsBatch by decide)]
  rfl
theorem lhs_dot_S16x64x256_S16x64x256_S16x64x64_2_2_1_1_0_0_1 (i : S16x64x64.Idx) (q : dot_S16x64x256_S16x64x256_S16x64x64_2_2_1_1_0_0.contr.Idx) :
    (dot_S16x64x256_S16x64x256_S16x64x64_2_2_1_1_0_0.lhsIdx i q 1).val = (i 1).val := by
  unfold DotDims.lhsIdx
  rw [dif_neg (show ¬(1 : Fin S16x64x256.rank) ∈ dot_S16x64x256_S16x64x256_S16x64x64_2_2_1_1_0_0.lhsBatch by decide), dif_pos (show (1 : Fin S16x64x256.rank) ∈ dot_S16x64x256_S16x64x256_S16x64x64_2_2_1_1_0_0.lhsNonContracting by decide)]
  rfl
theorem lhs_dot_S16x64x256_S16x64x256_S16x64x64_2_2_1_1_0_0_2 (i : S16x64x64.Idx) (q : dot_S16x64x256_S16x64x256_S16x64x64_2_2_1_1_0_0.contr.Idx) :
    (dot_S16x64x256_S16x64x256_S16x64x64_2_2_1_1_0_0.lhsIdx i q 2).val = (q ⟨0, by decide⟩).val :=
  dot_S16x64x256_S16x64x256_S16x64x64_2_2_1_1_0_0.lhsIdx_val_of_single rfl i q
theorem rhs_dot_S16x64x256_S16x64x256_S16x64x64_2_2_1_1_0_0_0 (i : S16x64x64.Idx) (q : dot_S16x64x256_S16x64x256_S16x64x64_2_2_1_1_0_0.contr.Idx) :
    (dot_S16x64x256_S16x64x256_S16x64x64_2_2_1_1_0_0.rhsIdx i q 0).val = (i 0).val := by
  unfold DotDims.rhsIdx
  rw [dif_pos (show (0 : Fin S16x64x256.rank) ∈ dot_S16x64x256_S16x64x256_S16x64x64_2_2_1_1_0_0.rhsBatch by decide)]
  rfl
theorem rhs_dot_S16x64x256_S16x64x256_S16x64x64_2_2_1_1_0_0_1 (i : S16x64x64.Idx) (q : dot_S16x64x256_S16x64x256_S16x64x64_2_2_1_1_0_0.contr.Idx) :
    (dot_S16x64x256_S16x64x256_S16x64x64_2_2_1_1_0_0.rhsIdx i q 1).val = (i 2).val := by
  unfold DotDims.rhsIdx
  rw [dif_neg (show ¬(1 : Fin S16x64x256.rank) ∈ dot_S16x64x256_S16x64x256_S16x64x64_2_2_1_1_0_0.rhsBatch by decide), dif_pos (show (1 : Fin S16x64x256.rank) ∈ dot_S16x64x256_S16x64x256_S16x64x64_2_2_1_1_0_0.rhsNonContracting by decide)]
  rfl
theorem rhs_dot_S16x64x256_S16x64x256_S16x64x64_2_2_1_1_0_0_2 (i : S16x64x64.Idx) (q : dot_S16x64x256_S16x64x256_S16x64x64_2_2_1_1_0_0.contr.Idx) :
    (dot_S16x64x256_S16x64x256_S16x64x64_2_2_1_1_0_0.rhsIdx i q 2).val = (q ⟨0, by decide⟩).val :=
  dot_S16x64x256_S16x64x256_S16x64x64_2_2_1_1_0_0.rhsIdx_val_of_single rfl i q

/-- Per window, query rows against key rows, contracting the features. -/
theorem scoreProduct_at (l : FVec Ideal S16x64x256 .bf16) (r : FVec Ideal S16x64x256 .bf16) (b : Fin 16) (q kk : Fin 64) :
    matmul dot_S16x64x256_S16x64x256_S16x64x64_2_2_1_1_0_0 none l r (constant (F := Ideal) S16x64x64 .f32 0x00000000#32) (ix3 b q kk)
      = ∑ k : Fin 256, l (ix3 b q k) * r (ix3 b kk k) := by
  refine (Ideal.matmul_constant_zero_apply dot_S16x64x256_S16x64x256_S16x64x64_2_2_1_1_0_0 none l r (ix3 b q kk)).trans ?_
  rw [← Equiv.sum_comp (ValueIdx.contrEquiv1 dot_S16x64x256_S16x64x256_S16x64x64_2_2_1_1_0_0 256 rfl rfl).symm]
  refine Finset.sum_congr rfl fun k _ => ?_
  have hk := ValueIdx.contrEquiv1_symm_val dot_S16x64x256_S16x64x256_S16x64x64_2_2_1_1_0_0 256 rfl rfl k
  have el : dot_S16x64x256_S16x64x256_S16x64x64_2_2_1_1_0_0.lhsIdx (ix3 b q kk) ((ValueIdx.contrEquiv1 dot_S16x64x256_S16x64x256_S16x64x64_2_2_1_1_0_0 256 rfl rfl).symm k) = ix3 b q k := funext fun a => Fin.ext (by
    match a with
    | ⟨0, _⟩ => exact lhs_dot_S16x64x256_S16x64x256_S16x64x64_2_2_1_1_0_0_0 _ _
    | ⟨1, _⟩ => exact lhs_dot_S16x64x256_S16x64x256_S16x64x64_2_2_1_1_0_0_1 _ _
    | ⟨2, _⟩ => exact (lhs_dot_S16x64x256_S16x64x256_S16x64x64_2_2_1_1_0_0_2 _ _).trans hk)
  have er : dot_S16x64x256_S16x64x256_S16x64x64_2_2_1_1_0_0.rhsIdx (ix3 b q kk) ((ValueIdx.contrEquiv1 dot_S16x64x256_S16x64x256_S16x64x64_2_2_1_1_0_0 256 rfl rfl).symm k) = ix3 b kk k := funext fun a => Fin.ext (by
    match a with
    | ⟨0, _⟩ => exact rhs_dot_S16x64x256_S16x64x256_S16x64x64_2_2_1_1_0_0_0 _ _
    | ⟨1, _⟩ => exact rhs_dot_S16x64x256_S16x64x256_S16x64x64_2_2_1_1_0_0_1 _ _
    | ⟨2, _⟩ => exact (rhs_dot_S16x64x256_S16x64x256_S16x64x64_2_2_1_1_0_0_2 _ _).trans hk)
  rw [el, er]

theorem lhs_dot_S16x64x64_S16x64x256_S16x64x256_2_1_1_2_0_0_0 (i : S16x64x256.Idx) (q : dot_S16x64x64_S16x64x256_S16x64x256_2_1_1_2_0_0.contr.Idx) :
    (dot_S16x64x64_S16x64x256_S16x64x256_2_1_1_2_0_0.lhsIdx i q 0).val = (i 0).val := by
  unfold DotDims.lhsIdx
  rw [dif_pos (show (0 : Fin S16x64x64.rank) ∈ dot_S16x64x64_S16x64x256_S16x64x256_2_1_1_2_0_0.lhsBatch by decide)]
  rfl
theorem lhs_dot_S16x64x64_S16x64x256_S16x64x256_2_1_1_2_0_0_1 (i : S16x64x256.Idx) (q : dot_S16x64x64_S16x64x256_S16x64x256_2_1_1_2_0_0.contr.Idx) :
    (dot_S16x64x64_S16x64x256_S16x64x256_2_1_1_2_0_0.lhsIdx i q 1).val = (i 1).val := by
  unfold DotDims.lhsIdx
  rw [dif_neg (show ¬(1 : Fin S16x64x64.rank) ∈ dot_S16x64x64_S16x64x256_S16x64x256_2_1_1_2_0_0.lhsBatch by decide), dif_pos (show (1 : Fin S16x64x64.rank) ∈ dot_S16x64x64_S16x64x256_S16x64x256_2_1_1_2_0_0.lhsNonContracting by decide)]
  rfl
theorem lhs_dot_S16x64x64_S16x64x256_S16x64x256_2_1_1_2_0_0_2 (i : S16x64x256.Idx) (q : dot_S16x64x64_S16x64x256_S16x64x256_2_1_1_2_0_0.contr.Idx) :
    (dot_S16x64x64_S16x64x256_S16x64x256_2_1_1_2_0_0.lhsIdx i q 2).val = (q ⟨0, by decide⟩).val :=
  dot_S16x64x64_S16x64x256_S16x64x256_2_1_1_2_0_0.lhsIdx_val_of_single rfl i q
theorem rhs_dot_S16x64x64_S16x64x256_S16x64x256_2_1_1_2_0_0_0 (i : S16x64x256.Idx) (q : dot_S16x64x64_S16x64x256_S16x64x256_2_1_1_2_0_0.contr.Idx) :
    (dot_S16x64x64_S16x64x256_S16x64x256_2_1_1_2_0_0.rhsIdx i q 0).val = (i 0).val := by
  unfold DotDims.rhsIdx
  rw [dif_pos (show (0 : Fin S16x64x256.rank) ∈ dot_S16x64x64_S16x64x256_S16x64x256_2_1_1_2_0_0.rhsBatch by decide)]
  rfl
theorem rhs_dot_S16x64x64_S16x64x256_S16x64x256_2_1_1_2_0_0_1 (i : S16x64x256.Idx) (q : dot_S16x64x64_S16x64x256_S16x64x256_2_1_1_2_0_0.contr.Idx) :
    (dot_S16x64x64_S16x64x256_S16x64x256_2_1_1_2_0_0.rhsIdx i q 1).val = (q ⟨0, by decide⟩).val :=
  dot_S16x64x64_S16x64x256_S16x64x256_2_1_1_2_0_0.rhsIdx_val_of_single rfl i q
theorem rhs_dot_S16x64x64_S16x64x256_S16x64x256_2_1_1_2_0_0_2 (i : S16x64x256.Idx) (q : dot_S16x64x64_S16x64x256_S16x64x256_2_1_1_2_0_0.contr.Idx) :
    (dot_S16x64x64_S16x64x256_S16x64x256_2_1_1_2_0_0.rhsIdx i q 2).val = (i 2).val := by
  unfold DotDims.rhsIdx
  rw [dif_neg (show ¬(2 : Fin S16x64x256.rank) ∈ dot_S16x64x64_S16x64x256_S16x64x256_2_1_1_2_0_0.rhsBatch by decide), dif_pos (show (2 : Fin S16x64x256.rank) ∈ dot_S16x64x64_S16x64x256_S16x64x256_2_1_1_2_0_0.rhsNonContracting by decide)]
  rfl

/-- Per window, attention rows against the value matrix, contracting the keys. -/
theorem contextProduct_at (l : FVec Ideal S16x64x64 .bf16) (r : FVec Ideal S16x64x256 .bf16) (b : Fin 16) (q : Fin 64) (d : Fin 256) :
    matmul dot_S16x64x64_S16x64x256_S16x64x256_2_1_1_2_0_0 none l r (constant (F := Ideal) S16x64x256 .f32 0x00000000#32) (ix3 b q d)
      = ∑ k : Fin 64, l (ix3 b q k) * r (ix3 b k d) := by
  refine (Ideal.matmul_constant_zero_apply dot_S16x64x64_S16x64x256_S16x64x256_2_1_1_2_0_0 none l r (ix3 b q d)).trans ?_
  rw [← Equiv.sum_comp (ValueIdx.contrEquiv1 dot_S16x64x64_S16x64x256_S16x64x256_2_1_1_2_0_0 64 rfl rfl).symm]
  refine Finset.sum_congr rfl fun k _ => ?_
  have hk := ValueIdx.contrEquiv1_symm_val dot_S16x64x64_S16x64x256_S16x64x256_2_1_1_2_0_0 64 rfl rfl k
  have el : dot_S16x64x64_S16x64x256_S16x64x256_2_1_1_2_0_0.lhsIdx (ix3 b q d) ((ValueIdx.contrEquiv1 dot_S16x64x64_S16x64x256_S16x64x256_2_1_1_2_0_0 64 rfl rfl).symm k) = ix3 b q k := funext fun a => Fin.ext (by
    match a with
    | ⟨0, _⟩ => exact lhs_dot_S16x64x64_S16x64x256_S16x64x256_2_1_1_2_0_0_0 _ _
    | ⟨1, _⟩ => exact lhs_dot_S16x64x64_S16x64x256_S16x64x256_2_1_1_2_0_0_1 _ _
    | ⟨2, _⟩ => exact (lhs_dot_S16x64x64_S16x64x256_S16x64x256_2_1_1_2_0_0_2 _ _).trans hk)
  have er : dot_S16x64x64_S16x64x256_S16x64x256_2_1_1_2_0_0.rhsIdx (ix3 b q d) ((ValueIdx.contrEquiv1 dot_S16x64x64_S16x64x256_S16x64x256_2_1_1_2_0_0 64 rfl rfl).symm k) = ix3 b k d := funext fun a => Fin.ext (by
    match a with
    | ⟨0, _⟩ => exact rhs_dot_S16x64x64_S16x64x256_S16x64x256_2_1_1_2_0_0_0 _ _
    | ⟨1, _⟩ => exact (rhs_dot_S16x64x64_S16x64x256_S16x64x256_2_1_1_2_0_0_1 _ _).trans hk
    | ⟨2, _⟩ => exact rhs_dot_S16x64x64_S16x64x256_S16x64x256_2_1_1_2_0_0_2 _ _)
  rw [el, er]

theorem lhs_dot_S1024x256_S256x256_S1024x256_1_0_0_1_n_n_0 (i : S1024x256.Idx) (q : dot_S1024x256_S256x256_S1024x256_1_0_0_1_n_n.contr.Idx) :
    (dot_S1024x256_S256x256_S1024x256_1_0_0_1_n_n.lhsIdx i q 0).val = (i 0).val := by
  unfold DotDims.lhsIdx
  rw [dif_neg (show ¬(0 : Fin S1024x256.rank) ∈ dot_S1024x256_S256x256_S1024x256_1_0_0_1_n_n.lhsBatch by decide), dif_pos (show (0 : Fin S1024x256.rank) ∈ dot_S1024x256_S256x256_S1024x256_1_0_0_1_n_n.lhsNonContracting by decide)]
  rfl
theorem lhs_dot_S1024x256_S256x256_S1024x256_1_0_0_1_n_n_1 (i : S1024x256.Idx) (q : dot_S1024x256_S256x256_S1024x256_1_0_0_1_n_n.contr.Idx) :
    (dot_S1024x256_S256x256_S1024x256_1_0_0_1_n_n.lhsIdx i q 1).val = (q ⟨0, by decide⟩).val :=
  dot_S1024x256_S256x256_S1024x256_1_0_0_1_n_n.lhsIdx_val_of_single rfl i q
theorem rhs_dot_S1024x256_S256x256_S1024x256_1_0_0_1_n_n_0 (i : S1024x256.Idx) (q : dot_S1024x256_S256x256_S1024x256_1_0_0_1_n_n.contr.Idx) :
    (dot_S1024x256_S256x256_S1024x256_1_0_0_1_n_n.rhsIdx i q 0).val = (q ⟨0, by decide⟩).val :=
  dot_S1024x256_S256x256_S1024x256_1_0_0_1_n_n.rhsIdx_val_of_single rfl i q
theorem rhs_dot_S1024x256_S256x256_S1024x256_1_0_0_1_n_n_1 (i : S1024x256.Idx) (q : dot_S1024x256_S256x256_S1024x256_1_0_0_1_n_n.contr.Idx) :
    (dot_S1024x256_S256x256_S1024x256_1_0_0_1_n_n.rhsIdx i q 1).val = (i 1).val := by
  unfold DotDims.rhsIdx
  rw [dif_neg (show ¬(1 : Fin S256x256.rank) ∈ dot_S1024x256_S256x256_S1024x256_1_0_0_1_n_n.rhsBatch by decide), dif_pos (show (1 : Fin S256x256.rank) ∈ dot_S1024x256_S256x256_S1024x256_1_0_0_1_n_n.rhsNonContracting by decide)]
  rfl

/-- Rows times the transposed projection weights. -/
theorem projProduct_at (l : FVec Ideal S1024x256 .bf16) (r : FVec Ideal S256x256 .bf16) (i0 : Fin 1024) (e : Fin 256) :
    matmul dot_S1024x256_S256x256_S1024x256_1_0_0_1_n_n none l r (constant (F := Ideal) S1024x256 .f32 0x00000000#32) (ix2 i0 e)
      = ∑ k : Fin 256, l (ix2 i0 k) * r (ix2 k e) := by
  refine (Ideal.matmul_constant_zero_apply dot_S1024x256_S256x256_S1024x256_1_0_0_1_n_n none l r (ix2 i0 e)).trans ?_
  rw [← Equiv.sum_comp (ValueIdx.contrEquiv1 dot_S1024x256_S256x256_S1024x256_1_0_0_1_n_n 256 rfl rfl).symm]
  refine Finset.sum_congr rfl fun k _ => ?_
  have hk := ValueIdx.contrEquiv1_symm_val dot_S1024x256_S256x256_S1024x256_1_0_0_1_n_n 256 rfl rfl k
  have el : dot_S1024x256_S256x256_S1024x256_1_0_0_1_n_n.lhsIdx (ix2 i0 e) ((ValueIdx.contrEquiv1 dot_S1024x256_S256x256_S1024x256_1_0_0_1_n_n 256 rfl rfl).symm k) = ix2 i0 k := funext fun a => Fin.ext (by
    match a with
    | ⟨0, _⟩ => exact lhs_dot_S1024x256_S256x256_S1024x256_1_0_0_1_n_n_0 _ _
    | ⟨1, _⟩ => exact (lhs_dot_S1024x256_S256x256_S1024x256_1_0_0_1_n_n_1 _ _).trans hk)
  have er : dot_S1024x256_S256x256_S1024x256_1_0_0_1_n_n.rhsIdx (ix2 i0 e) ((ValueIdx.contrEquiv1 dot_S1024x256_S256x256_S1024x256_1_0_0_1_n_n 256 rfl rfl).symm k) = ix2 k e := funext fun a => Fin.ext (by
    match a with
    | ⟨0, _⟩ => exact (rhs_dot_S1024x256_S256x256_S1024x256_1_0_0_1_n_n_0 _ _).trans hk
    | ⟨1, _⟩ => exact rhs_dot_S1024x256_S256x256_S1024x256_1_0_0_1_n_n_1 _ _)
  rw [el, er]

/-! ## The two row reductions of the softmax -/

/-- The reduced index `(b, q)` with key `k` put back on the last axis is `(b, q, k)`. -/
theorem lift_keys (h : S16x64x64.Reduces [2] S16x64) (b : Fin 16) (q : Fin 64) (k : Fin (S16x64x64.size 2)) :
    h.lift (ix2 b q) k = ix3 b q (⟨k.val, k.isLt⟩ : Fin 64) := by
  funext c; apply Fin.ext
  match c with | ⟨0, _⟩ => rfl | ⟨1, _⟩ => rfl | ⟨2, _⟩ => rfl

/-- The maximum over keys: a fold of `max` from the accumulator's value. -/
theorem maxOverKeys_at (v : FVec Ideal S16x64x64 .f32) (acc : BitVec 32) (h : S16x64x64.Reduces [2] S16x64)
    (hφ : FKind.Formats .f32) (hacc : acc = FKind.maximumf.neutral .f32 hφ) (b : Fin 16) (q : Fin 64) :
    multiReduction (F := Ideal) .maximumf [2] S16x64 v acc h hφ hacc (ix2 b q)
      = (Finset.univ : Finset (Fin 64)).fold max (Ideal.ofBits .f32 acc) (fun k => v (ix3 b q k)) := by
  refine (Ideal.multiReduction_maximumf_single v acc h hφ hacc (ix2 b q)).trans ?_
  have hf : (v ∘ h.lift (ix2 b q)) = fun k : Fin 64 => v (ix3 b q k) :=
    funext fun k => congrArg v (lift_keys h b q k)
  exact congrArg (fun f => Finset.fold max (Ideal.ofBits .f32 acc) f (Finset.univ : Finset (Fin 64))) hf

/-- The sum over keys. -/
theorem sumOverKeys_at (v : FVec Ideal S16x64x64 .f32) (acc : BitVec 32) (h : S16x64x64.Reduces [2] S16x64)
    (hφ : FKind.Formats .f32) (hacc : acc = FKind.add.neutral .f32 hφ) (b : Fin 16) (q : Fin 64) :
    multiReduction (F := Ideal) .add [2] S16x64 v acc h hφ hacc (ix2 b q) = ∑ k : Fin 64, v (ix3 b q k) := by
  refine (Ideal.multiReduction_add_single v acc h hφ hacc (ix2 b q)).trans ?_
  exact Finset.sum_congr rfl fun k _ => congrArg v (lift_keys h b q k)

end Cert.WindowAttention.Block

end
-- ==== Proof.BlockValue.lean ====
/-
  What the kernel body computes on a block of 16 windows: stage by stage, read at an index, it is the
  attention of `Attention.lean` for the block's window the index lies in.

  The body's arithmetic is one chain: the fused features of the 1024 rows; their three column groups
  reshaped to windows; the per-window scores; the row maximum (a reduction from minus infinity, and a
  maximum with minus infinity); the exponentials of the shifted scores; their row sums; the quotients;
  the per-window contexts; and the projection of the 1024 context rows plus its bias.  Each stage is named
  here and read at `(b, …)`, where only window `b`'s tokens `fun t d => x0 (b, t, d)` enter.
  The changes of float format inside the chain are identities on the extended reals.
-/
import proofs.«134024_j54168127537767_1_alg».proof.Proof.Gen.KernelIdeal.Skeleton
import proofs.«134024_j54168127537767_1_alg».proof.Proof.BlockOps

noncomputable section

namespace Cert.WindowAttention.Block

open Cert.KernelIdeal Cert.KernelIdeal.Gen
open Idealize.ShloMosaic Idealize.ShloMosaic.ValueIdx Cert.WindowAttention

variable (x0 : Vec Ideal S16x64x256 .f32) (x1 : Vec Ideal S768x256 .f32) (x2 : Vec Ideal S1x768 .f32)
  (x3 : Vec Ideal S256x256 .f32) (x4 : Vec Ideal S1x256 .f32)

/-- Window `b` of the block, and the weights and biases as plain functions of their coordinates. -/
abbrev bwin (b : Fin 16) : Fin 64 → Fin 256 → EReal := fun t d => x0 (ix3 b t d)
abbrev wq : Fin 768 → Fin 256 → EReal := fun e d => x1 (ix2 e d)
abbrev bq : Fin 768 → EReal := fun e => x2 (ix2 (0 : Fin 1) e)
abbrev wo : Fin 256 → Fin 256 → EReal := fun e d => x3 (ix2 e d)
abbrev bo : Fin 256 → EReal := fun e => x4 (ix2 (0 : Fin 1) e)

/-! ## The stages -/

/-- The fused features of the block's 1024 rows. -/
def kFused : FVec Ideal S1024x768 .f32 :=
  addf (matmul dot_S1024x256_S256x768_S1024x768_1_0_0_1_n_n none
      (truncf .bf16 (shapeCast S1024x256 x0 shapeCasts_S16x64x256_S1024x256) bitsLt_bf16_f32)
      (transpose S256x768 [1, 0] (truncf .bf16 x1 bitsLt_bf16_f32) transposes_S768x256_p1_0_S256x768)
      (constant S1024x768 .f32 0x00000000#32))
    (broadcastTo S1024x768 (shapeCast S1x768 x2 shapeCasts_S1x768_S1x768) broadcasts_S1x768_S1024x768)

/-- Queries, keys and values, per window. -/
def kQ : FVec Ideal S16x64x256 .f32 :=
  shapeCast S16x64x256 (extractStridedSlice S1024x256 ![0, 0] (kFused x0 x1 x2) slices_S1024x768_o0_0_S1024x256) shapeCasts_S1024x256_S16x64x256
def kK : FVec Ideal S16x64x256 .f32 :=
  shapeCast S16x64x256 (extractStridedSlice S1024x256 ![0, 256] (kFused x0 x1 x2) slices_S1024x768_o0_256_S1024x256) shapeCasts_S1024x256_S16x64x256
def kV : FVec Ideal S16x64x256 .f32 :=
  shapeCast S16x64x256 (extractStridedSlice S1024x256 ![0, 512] (kFused x0 x1 x2) slices_S1024x768_o0_512_S1024x256) shapeCasts_S1024x256_S16x64x256

/-- The scores, per window. -/
def kScore : FVec Ideal S16x64x64 .f32 :=
  matmul dot_S16x64x256_S16x64x256_S16x64x64_2_2_1_1_0_0 none (truncf .bf16 (kQ x0 x1 x2) bitsLt_bf16_f32) (truncf .bf16 (kK x0 x1 x2) bitsLt_bf16_f32)
    (constant S16x64x64 .f32 0x00000000#32)

/-- The row maxima. -/
def kMax : FVec Ideal S16x64 .f32 :=
  maximumf (broadcast S16x64 (Scalar.ofBits .f32 0xFF800000#32))
    (multiReduction .maximumf [2] S16x64 (kScore x0 x1 x2) 0xFF800000#32 reduces_S16x64x64_S16x64 (.inl rfl) rfl)

/-- The unnormalised softmax weights. -/
def kWeight : FVec Ideal S16x64x64 .f32 :=
  exp (subf (kScore x0 x1 x2)
    (broadcastTo S16x64x64 (shapeCast S16x64x1 (kMax x0 x1 x2) shapeCasts_S16x64_S16x64x1) broadcasts_S16x64x1_S16x64x64))

/-- The softmax denominators. -/
def kDenom : FVec Ideal S16x64 .f32 :=
  multiReduction .add [2] S16x64 (kWeight x0 x1 x2) 0x00000000#32 reduces_S16x64x64_S16x64 (.inl rfl) rfl

/-- The attention weights. -/
def kAttn : FVec Ideal S16x64x64 .f32 :=
  divf (kWeight x0 x1 x2)
    (broadcastTo S16x64x64 (shapeCast S16x64x1 (kDenom x0 x1 x2) shapeCasts_S16x64_S16x64x1) broadcasts_S16x64x1_S16x64x64)

/-- The contexts, per window. -/
def kCtx : FVec Ideal S16x64x256 .f32 :=
  matmul dot_S16x64x64_S16x64x256_S16x64x256_2_1_1_2_0_0 none (truncf .bf16 (kAttn x0 x1 x2) bitsLt_bf16_f32) (truncf .bf16 (kV x0 x1 x2) bitsLt_bf16_f32)
    (constant S16x64x256 .f32 0x00000000#32)

/-- The projected result of the block. -/
def kOut : FVec Ideal S16x64x256 .f32 :=
  shapeCast S16x64x256
    (addf (matmul dot_S1024x256_S256x256_S1024x256_1_0_0_1_n_n none
        (truncf .bf16 (shapeCast S1024x256 (kCtx x0 x1 x2) shapeCasts_S16x64x256_S1024x256) bitsLt_bf16_f32)
        (transpose S256x256 [1, 0] (truncf .bf16 x3 bitsLt_bf16_f32) transposes_S256x256_p1_0_S256x256)
        (constant S1024x256 .f32 0x00000000#32))
      (broadcastTo S1024x256 (shapeCast S1x256 x4 shapeCasts_S1x256_S1x256) broadcasts_S1x256_S1024x256))
    shapeCasts_S1024x256_S16x64x256

/-- The body's stored value is the last stage: the payload definitions unfold to this chain. -/
theorem payload_eq :
    k0_pay1 (F := Ideal) (k0_pay2 x4) (k0_pay3 x0 x1 x2) (k0_pay4 x3) (constant S1024x256 .f32 0x00000000#32)
      = kOut x0 x1 x2 x3 x4 := rfl

/-! ## Each stage at an index -/

theorem fused_at (b : Fin 16) (t : Fin 64) (e : Fin 768) :
    kFused x0 x1 x2 (ix2 (row b t) e) = qkv (bwin x0 b) (wq x1) (bq x2) t e := by
  unfold kFused qkv
  rw [addf_apply]
  refine congrArg₂ (· + ·) ?_ ?_
  · refine (fusedProduct_at _ _ (row b t) e).trans ?_
    refine Finset.sum_congr rfl fun k _ => ?_
    simp only [truncf_apply]
    refine congrArg₂ (· * ·) ?_ ?_
    · exact flatten_at x0 _ b t k
    · exact transposeFused_at _ _ k e
  · exact (biasFused_at _ _ (row b t) e).trans (congrFun (shapeCast_self x2 _) _)

theorem q_at (b : Fin 16) (t : Fin 64) (d : Fin 256) :
    kQ x0 x1 x2 (ix3 b t d) = qkv (bwin x0 b) (wq x1) (bq x2) t (colQ d) := by
  unfold kQ
  exact (unflatten_at _ _ b t d).trans ((sliceQ_at _ _ (row b t) d).trans (fused_at x0 x1 x2 b t (colQ d)))

theorem k_at (b : Fin 16) (t : Fin 64) (d : Fin 256) :
    kK x0 x1 x2 (ix3 b t d) = qkv (bwin x0 b) (wq x1) (bq x2) t (colK d) := by
  unfold kK
  exact (unflatten_at _ _ b t d).trans ((sliceK_at _ _ (row b t) d).trans (fused_at x0 x1 x2 b t (colK d)))

theorem v_at (b : Fin 16) (t : Fin 64) (d : Fin 256) :
    kV x0 x1 x2 (ix3 b t d) = qkv (bwin x0 b) (wq x1) (bq x2) t (colV d) := by
  unfold kV
  exact (unflatten_at _ _ b t d).trans ((sliceV_at _ _ (row b t) d).trans (fused_at x0 x1 x2 b t (colV d)))

theorem score_at (b : Fin 16) (q k : Fin 64) :
    kScore x0 x1 x2 (ix3 b q k) = score (bwin x0 b) (wq x1) (bq x2) q k := by
  unfold kScore score
  refine (scoreProduct_at _ _ b q k).trans ?_
  refine Finset.sum_congr rfl fun d _ => ?_
  simp only [truncf_apply]
  rw [q_at, k_at]

theorem max_at (b : Fin 16) (q : Fin 64) :
    kMax x0 x1 x2 (ix2 b q) = rowMax (bwin x0 b) (wq x1) (bq x2) q := by
  unfold kMax rowMax negInf
  rw [maximumf_apply, broadcast_apply]
  refine congrArg₂ max rfl ?_
  refine (maxOverKeys_at _ _ _ _ _ b q).trans ?_
  exact congrArg (fun f => Finset.fold max (Ideal.ofBits .f32 0xFF800000#32) f (Finset.univ : Finset (Fin 64)))
    (funext fun k => score_at x0 x1 x2 b q k)

theorem weight_at (b : Fin 16) (q k : Fin 64) :
    kWeight x0 x1 x2 (ix3 b q k) = weight (bwin x0 b) (wq x1) (bq x2) q k := by
  unfold kWeight weight
  refine congrArg Ideal.exp ?_
  rw [subf_apply, alongKeys_at, score_at, max_at]

theorem denom_at (b : Fin 16) (q : Fin 64) :
    kDenom x0 x1 x2 (ix2 b q) = denom (bwin x0 b) (wq x1) (bq x2) q := by
  unfold kDenom denom
  refine (sumOverKeys_at _ _ _ _ _ b q).trans ?_
  exact Finset.sum_congr rfl fun k _ => weight_at x0 x1 x2 b q k

theorem attn_at (b : Fin 16) (q k : Fin 64) :
    kAttn x0 x1 x2 (ix3 b q k) = attn (bwin x0 b) (wq x1) (bq x2) q k := by
  unfold kAttn attn
  rw [divf_apply, alongKeys_at, weight_at, denom_at]

theorem ctx_at (b : Fin 16) (q : Fin 64) (d : Fin 256) :
    kCtx x0 x1 x2 (ix3 b q d) = ctx (bwin x0 b) (wq x1) (bq x2) q d := by
  unfold kCtx ctx
  refine (contextProduct_at _ _ b q d).trans ?_
  refine Finset.sum_congr rfl fun k _ => ?_
  simp only [truncf_apply]
  rw [attn_at, v_at]

/-- The block's result at `(b, q, e)` is window `b`'s attention result at `(q, e)`. -/
theorem out_at (b : Fin 16) (q : Fin 64) (e : Fin 256) :
    kOut x0 x1 x2 x3 x4 (ix3 b q e) = out (bwin x0 b) (wq x1) (bq x2) (wo x3) (bo x4) q e := by
  unfold kOut out
  refine (unflatten_at _ _ b q e).trans ?_
  rw [addf_apply]
  refine congrArg₂ (· + ·) ?_ ?_
  · refine (projProduct_at _ _ (row b q) e).trans ?_
    refine Finset.sum_congr rfl fun k _ => ?_
    simp only [truncf_apply]
    refine congrArg₂ (· * ·) ?_ ?_
    · exact (flatten_at _ _ b q k).trans (ctx_at x0 x1 x2 b q k)
    · exact transposeProj_at _ _ k e
  · exact (biasProj_at _ _ (row b q) e).trans (congrFun (shapeCast_self x4 _) _)

end Cert.WindowAttention.Block

end
-- ==== Proof.Kernel.lean ====
/-
  The kernel's run: its result array ends at `G` of the argument arrays.

  Grid point `t` of 256 handles windows `16 t … 16 t + 15`: its input block of the token array and its
  output block are rows `16 t + b` of the window axis, whole on the other two axes; the weights and the two
  bias rows are staged whole at every point.  So what point `t` writes back at `(b, q, e)` is window
  `16 t + b`'s attention result at `(q, e)` — block `t` of one function of the arrays as the region finds
  them — and the 256 blocks tile the result array.  The two bias rows are reshapes, made by @main before the
  region, of the rank-1 bias arguments.
-/
import proofs.«134024_j54168127537767_1_alg».proof.Proof.Gen.KernelIdeal.Value
import proofs.«134024_j54168127537767_1_alg».proof.Proof.BlockValue
import Idealize.ShloMosaic.Lib.StableHlo.Run

set_option maxRecDepth 16384

noncomputable section

namespace Cert.WindowAttention.Kernel

open Cert.KernelIdeal Cert.KernelIdeal.Gen Cert.KernelIdeal.Value
open Idealize.ShloMosaic Idealize.ShloMosaic.TcCoe Idealize.SL.Sem Idealize.ShloMosaic.ValueIdx
open Cert.WindowAttention Cert.WindowAttention.Block
open Idealize.ShloMosaic.Pipeline (Dat)

variable (m : (ℓ : Loc nD τ sig) → Buf (Elt Ideal) ℓ) (ρ : Dev nD → PrngReg)

/-- The attention result depends on its five arguments only through their values. -/
theorem out_congr {x x' : Fin 64 → Fin 256 → EReal} {w w' : Fin 768 → Fin 256 → EReal} {b b' : Fin 768 → EReal}
    {pw pw' : Fin 256 → Fin 256 → EReal} {pb pb' : Fin 256 → EReal}
    (hx : x = x') (hw : w = w') (hb : b = b') (hpw : pw = pw') (hpb : pb = pb') (q : Fin 64) (e : Fin 256) :
    out x w b pw pb q e = out x' w' b' pw' pb' q e := by
  subst hx hw hb hpw hpb; rfl

/-! ## The arrays as the region finds them -/

abbrev xarr (c : Dev nD) : Vec Ideal S4096x64x256 .f32 := V m c main_arg0
abbrev warr (c : Dev nD) : Vec Ideal S768x256 .f32 := V m c main_arg1
abbrev brow (c : Dev nD) : Vec Ideal S1x768 .f32 := V m c main_v0
abbrev pwarr (c : Dev nD) : Vec Ideal S256x256 .f32 := V m c main_arg3
abbrev pbrow (c : Dev nD) : Vec Ideal S1x256 .f32 := V m c main_v1

/-- Window `16 t + b` of the array: window `b` of grid point `t`'s block. -/
def gwin (t : Fin cfg0.N) (b : Fin 16) : Fin 4096 :=
  ⟨t.val * 16 + b.val, by have := t.isLt; have hN : cfg0.N = 256 := N_0; have := b.isLt; omega⟩

/-- The result array as one function of the arrays the region finds. -/
def GK (c : Dev nD) : S4096x64x256.Idx → EReal := fun i =>
  out (fun t d => xarr m c (ix3 (i 0) t d)) (fun e d => warr m c (ix2 e d)) (fun e => brow m c (ix2 (0 : Fin 1) e))
    (fun e d => pwarr m c (ix2 e d)) (fun e => pbrow m c (ix2 (0 : Fin 1) e)) (i 1) (i 2)

/-! ## The windows' blocks -/

/-- The printed index maps over the grid: the token window and the result window sit at block `t` of the
    window axis, every other block index is zero. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = t.val ∧ win0_5.index t (1 : Fin 3) = 0 ∧ win0_5.index t (2 : Fin 3) = 0 :=
  (by decide +kernel : ∀ t : Fin grid0.N, _)

theorem tokens_block (c : Dev nD) (t : Fin cfg0.N) (b : Fin 16) (q : Fin 64) (d : Fin 256) :
    iblk m c 0 t (ix3 b q d) = xarr m c (ix3 (gwin t b) q d) := by
  obtain ⟨e0, e1, e2, -⟩ := idx_facts t
  show V m c main_arg0 (((cfg0.win 0).blk t).view.emb (ix3 b q d)) = V m c main_arg0 (ix3 (gwin t b) q d)
  refine congrArg (V m c main_arg0) (funext fun a => Fin.ext ?_)
  match a with
  | ⟨0, _⟩ => show win0_0.index t (0 : Fin 3) * 16 + 1 * b.val = t.val * 16 + b.val; rw [e0]; omega
  | ⟨1, _⟩ => show win0_0.index t (1 : Fin 3) * 64 + 1 * q.val = q.val; rw [e1]; omega
  | ⟨2, _⟩ => show win0_0.index t (2 : Fin 3) * 256 + 1 * d.val = d.val; rw [e2]; omega

theorem fusedWeights_block (c : Dev nD) (t : Fin cfg0.N) (e : Fin 768) (d : Fin 256) :
    iblk m c 1 t (ix2 e d) = warr m c (ix2 e d) := by
  obtain ⟨-, -, -, e0, e1, -⟩ := idx_facts t
  show V m c main_arg1 (((cfg0.win 1).blk t).view.emb (ix2 e d)) = V m c main_arg1 (ix2 e d)
  refine congrArg (V m c main_arg1) (funext fun a => Fin.ext ?_)
  match a with
  | ⟨0, _⟩ => show win0_1.index t (0 : Fin 2) * 768 + 1 * e.val = e.val; rw [e0]; omega
  | ⟨1, _⟩ => show win0_1.index t (1 : Fin 2) * 256 + 1 * d.val = d.val; rw [e1]; omega

theorem fusedBias_block (c : Dev nD) (t : Fin cfg0.N) (e : Fin 768) :
    iblk m c 2 t (ix2 (0 : Fin 1) e) = brow m c (ix2 (0 : Fin 1) e) := by
  obtain ⟨-, -, -, -, -, e0, e1, -⟩ := idx_facts t
  show V m c main_v0 (((cfg0.win 2).blk t).view.emb (ix2 (0 : Fin 1) e)) = V m c main_v0 (ix2 (0 : Fin 1) e)
  refine congrArg (V m c main_v0) (funext fun a => Fin.ext ?_)
  match a with
  | ⟨0, _⟩ => show win0_2.index t (0 : Fin 2) * 1 + 1 * 0 = 0; rw [e0]
  | ⟨1, _⟩ => show win0_2.index t (1 : Fin 2) * 768 + 1 * e.val = e.val; rw [e1]; omega

theorem projWeights_block (c : Dev nD) (t : Fin cfg0.N) (e : Fin 256) (d : Fin 256) :
    iblk m c 3 t (ix2 e d) = pwarr m c (ix2 e d) := by
  obtain ⟨-, -, -, -, -, -, -, e0, e1, -⟩ := idx_facts t
  show V m c main_arg3 (((cfg0.win 3).blk t).view.emb (ix2 e d)) = V m c main_arg3 (ix2 e d)
  refine congrArg (V m c main_arg3) (funext fun a => Fin.ext ?_)
  match a with
  | ⟨0, _⟩ => show win0_3.index t (0 : Fin 2) * 256 + 1 * e.val = e.val; rw [e0]; omega
  | ⟨1, _⟩ => show win0_3.index t (1 : Fin 2) * 256 + 1 * d.val = d.val; rw [e1]; omega

theorem projBias_block (c : Dev nD) (t : Fin cfg0.N) (e : Fin 256) :
    iblk m c 4 t (ix2 (0 : Fin 1) e) = pbrow m c (ix2 (0 : Fin 1) e) := by
  obtain ⟨-, -, -, -, -, -, -, -, -, e0, e1, -⟩ := idx_facts t
  show V m c main_v1 (((cfg0.win 4).blk t).view.emb (ix2 (0 : Fin 1) e)) = V m c main_v1 (ix2 (0 : Fin 1) e)
  refine congrArg (V m c main_v1) (funext fun a => Fin.ext ?_)
  match a with
  | ⟨0, _⟩ => show win0_4.index t (0 : Fin 2) * 1 + 1 * 0 = 0; rw [e0]
  | ⟨1, _⟩ => show win0_4.index t (1 : Fin 2) * 256 + 1 * e.val = e.val; rw [e1]; omega

/-- Where the result block's element `(b, q, e)` sits in the array. -/
theorem result_block (t : Fin cfg0.N) (b : Fin 16) (q : Fin 64) (e : Fin 256) :
    ((cfg0.win 5).blk t).view.emb (ix3 b q e) = ix3 (gwin t b) q e := by
  obtain ⟨-, -, -, -, -, -, -, -, -, -, -, e0, e1, e2⟩ := idx_facts t
  refine funext fun a => Fin.ext ?_
  match a with
  | ⟨0, _⟩ => show win0_5.index t (0 : Fin 3) * 16 + 1 * b.val = t.val * 16 + b.val; rw [e0]; omega
  | ⟨1, _⟩ => show win0_5.index t (1 : Fin 3) * 64 + 1 * q.val = q.val; rw [e1]; omega
  | ⟨2, _⟩ => show win0_5.index t (2 : Fin 3) * 256 + 1 * e.val = e.val; rw [e2]; omega

/-! ## What a grid point writes back -/

theorem hz3 : (![0, 0, 0] : Fin 3 → Nat) = fun _ => 0 := funext fun a => by fin_cases a <;> rfl
theorem hz2 : (![0, 0] : Fin 2 → Nat) = fun _ => 0 := funext fun a => by fin_cases a <;> rfl

/-- Point `t` writes back block `t` of `GK`. -/
theorem flushed_eq (c : Dev nD) (t : Fin cfg0.N) :
    (dats m 0 c).flushed 5 t = ((cfg0.win 5).blk t).view.read (Elt Ideal) (GK m c) := by
  rw [flushed5]
  unfold out0_5
  rw [View.canon_unit_zero hz3]
  simp only [View.ld_unit_zero (S := S16x64x256) hz3, View.ld_unit_zero (S := S768x256) hz2,
    View.ld_unit_zero (S := S1x768) hz2, View.ld_unit_zero (S := S256x256) hz2, View.ld_unit_zero (S := S1x256) hz2]
  have hp := payload_eq (iblk m c 0 t) (iblk m c 1 t) (iblk m c 2 t) (iblk m c 3 t) (iblk m c 4 t)
  rw [hp]
  funext j
  obtain ⟨b, q, e, rfl⟩ : ∃ (b : Fin 16) (q : Fin 64) (e : Fin 256), j = ix3 b q e := ⟨j 0, j 1, j 2, eq_ix3 j⟩
  show kOut (iblk m c 0 t) (iblk m c 1 t) (iblk m c 2 t) (iblk m c 3 t) (iblk m c 4 t) (ix3 b q e)
    = GK m c (((cfg0.win 5).blk t).view.emb (ix3 b q e))
  refine (out_at (iblk m c 0 t) (iblk m c 1 t) (iblk m c 2 t) (iblk m c 3 t) (iblk m c 4 t) b q e).trans ?_
  rw [result_block]
  exact out_congr (funext fun t' => funext fun d => tokens_block m c t b t' d)
    (funext fun e' => funext fun d => fusedWeights_block m c t e' d)
    (funext fun e' => fusedBias_block m c t e')
    (funext fun e' => funext fun d => projWeights_block m c t e' d)
    (funext fun e' => projBias_block m c t e') q e

/-! ## The blocks tile the array -/

theorem mem_blk (t : Fin cfg0.N) (i : S4096x64x256.Idx) :
    i ∈ ((cfg0.win 5).blk t).view.set ↔ ∀ a : Fin 3, win0_5.index t a * S16x64x256.size a ≤ (i a).val ∧ (i a).val < win0_5.index t a * S16x64x256.size a + S16x64x256.size a := by
  show i ∈ ((View.whole main_v2).slice (win0_5.rect t)).set ↔ _
  rw [View.set_slice_whole, Rect.mem_set_unit]
  exact Iff.rfl

/-- Every index of the result array lies in the block of the point that handles its window. -/
theorem cover (i : S4096x64x256.Idx) :
    ∃ t : Fin cfg0.N, (cfg0.win 5).flush t = true ∧ i ∈ ((cfg0.win 5).blk t).view.set := by
  have hi0 : (i 0).val < 4096 := (i 0).isLt
  have hi1 : (i 1).val < 64 := (i 1).isLt
  have hi2 : (i 2).val < 256 := (i 2).isLt
  have hN : cfg0.N = 256 := N_0
  obtain ⟨t, ht⟩ : ∃ t : Fin cfg0.N, t.val = (i 0).val / 16 := ⟨⟨(i 0).val / 16, by omega⟩, rfl⟩
  obtain ⟨-, -, -, -, -, -, -, -, -, -, -, e0, e1, e2⟩ := idx_facts t
  refine ⟨t, flush0_5 t, ?_⟩
  rw [mem_blk]
  intro a
  match a with
  | ⟨0, _⟩ => show win0_5.index t (0 : Fin 3) * 16 ≤ (i 0).val ∧ (i 0).val < win0_5.index t (0 : Fin 3) * 16 + 16; rw [e0]; omega
  | ⟨1, _⟩ => show win0_5.index t (1 : Fin 3) * 64 ≤ (i 1).val ∧ (i 1).val < win0_5.index t (1 : Fin 3) * 64 + 64; rw [e1]; omega
  | ⟨2, _⟩ => show win0_5.index t (2 : Fin 3) * 256 ≤ (i 2).val ∧ (i 2).val < win0_5.index t (2 : Fin 3) * 256 + 256; rw [e2]; omega

/-- The result array after the run. -/
theorem final (c : Dev nD) : (dats m 0 c).arrAt 5 cfg0.N = GK m c :=
  (dats m 0 c).arrAt_eq_of_cover 5 (GK m c) (fun t _ => flushed_eq m c t) cover

/-! ## From the arrays the region finds to the arguments -/

/-- The fused bias row the region finds is the rank-1 bias argument, reshaped by @main. -/
theorem fusedBias_row (c : Dev nD) (e : Fin 768) :
    brow m c (ix2 (0 : Fin 1) e) = m ((c : Thread nD τ).loc main_arg2) (ix1 e) := by
  have hv : (V m c main_v0 : S1x768.Idx → EReal)
      = shapeCast S1x768 (m ((c : Thread nD τ).loc main_arg2)) shapeCasts_S768_S1x768 := by
    dsimp only [V, hostOps0]; after_results; rfl
  show V m c main_v0 (ix2 (0 : Fin 1) e) = _
  rw [hv]
  exact shapeCast_apply _ _ (ix2 (0 : Fin 1) e) (ix1 e) (by
    rw [Shape.rowMajor_val_one, Shape.rowMajor_val_two]
    show e.val = 0 * 768 + e.val
    omega)

/-- The projection bias row likewise. -/
theorem projBias_row (c : Dev nD) (e : Fin 256) :
    pbrow m c (ix2 (0 : Fin 1) e) = m ((c : Thread nD τ).loc main_arg4) (ix1 e) := by
  have hv : (V m c main_v1 : S1x256.Idx → EReal)
      = shapeCast S1x256 (m ((c : Thread nD τ).loc main_arg4)) shapeCasts_S256_S1x256 := by
    dsimp only [V, hostOps0]; after_results; rfl
  show V m c main_v1 (ix2 (0 : Fin 1) e) = _
  rw [hv]
  exact shapeCast_apply _ _ (ix2 (0 : Fin 1) e) (ix1 e) (by
    rw [Shape.rowMajor_val_one, Shape.rowMajor_val_two]
    show e.val = 0 * 256 + e.val
    omega)

/-- `GK` is `G` of the five arguments as launched. -/
theorem GK_eq_G (c : Dev nD) :
    GK m c = G (m ((c : Thread nD τ).loc main_arg0)) (m ((c : Thread nD τ).loc main_arg1))
      (m ((c : Thread nD τ).loc main_arg2)) (m ((c : Thread nD τ).loc main_arg3)) (m ((c : Thread nD τ).loc main_arg4)) := by
  funext i
  unfold GK G
  exact out_congr (funext fun t => funext fun d => congrFun (V_main_arg0 m c) _)
    (funext fun e => funext fun d => congrFun (V_main_arg1 m c) _)
    (funext fun e => fusedBias_row m c e)
    (funext fun e => funext fun d => congrFun (V_main_arg3 m c) _)
    (funext fun e => projBias_row m c e) (i 1) (i 2)

/-! ## The run -/

/-- Every weakly fair execution of the kernel program terminates with the result array at `G` of the
    arguments and the arguments unchanged. -/
theorem run : θ_run defs (onTc (τ := τ) (main (F := Ideal))) ⟨m, fun _ => 0, ρ⟩ fun r => ∀ c : Dev nD,
      r.2.mem ((c : Thread nD τ).loc main_v2) = G (m ((c : Thread nD τ).loc main_arg0)) (m ((c : Thread nD τ).loc main_arg1))
        (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans ((final m c).trans (GK_eq_G m c)), (h c).2⟩)
    (run_blocks m ρ)

end Cert.WindowAttention.Kernel

end
-- ==== Proof.lean ====
/-
  Windowed self-attention, 4096 windows of 64 tokens with 256 features: a fused linear layer to queries,
  keys and values, per-window scores `q · k`, a softmax over the keys, the weighted sum of the values, and an
  output projection.  The kernel handles 16 windows per grid point as a [1024, 256] matrix of rows and as a
  [16, 64, 256] batch; the reference handles all 4096 windows at once.

  On the extended reals the two programs apply the same operations in the same order: the changes of float
  format inside the kernel are identities, a matrix product into a zero accumulator is the host's
  `dot_general` (both are the sum over the contracted coordinate), a lane reduction is the host's reduce
  (the same sum, the same fold of `max` from minus infinity), and the softmax is spelt identically on both
  sides.  What differs is the arrangement: the kernel transposes the weight matrices where the reference
  contracts their second axis, reshapes between rows and windows, and works block by block.  Every entry
  `(n, q, e)` of the result depends on window `n`'s tokens alone, so both sides are one function `G` of the
  argument arrays (`Proof/Attention.lean`): the reference stage by stage (`Proof/Reference.lean`), the
  kernel's block stage by stage (`Proof/BlockOps.lean`, `Proof/BlockValue.lean`) and then block by block
  over the grid (`Proof/Kernel.lean`).  No law beyond re-indexing is used, so the precondition is not opened.

  The three frames are the programs' runs with the results dropped; the idealization rewrote nothing, so
  `preserves` has no conjunct.
-/
import proofs.«134024_j54168127537767_1_alg».proof.Defs
import proofs.«134024_j54168127537767_1_alg».proof.Proof.Gen.Kernel
import proofs.«134024_j54168127537767_1_alg».proof.Proof.Gen.Kernel.Skeleton
import proofs.«134024_j54168127537767_1_alg».proof.Proof.Gen.Kernel.Launch
import proofs.«134024_j54168127537767_1_alg».proof.Proof.Gen.Kernel.Points
import proofs.«134024_j54168127537767_1_alg».proof.Proof.Gen.Kernel.Frame
import proofs.«134024_j54168127537767_1_alg».proof.Proof.Gen.KernelIdeal
import proofs.«134024_j54168127537767_1_alg».proof.Proof.Gen.KernelIdeal.Skeleton
import proofs.«134024_j54168127537767_1_alg».proof.Proof.Gen.KernelIdeal.Launch
import proofs.«134024_j54168127537767_1_alg».proof.Proof.Gen.KernelIdeal.Points
import proofs.«134024_j54168127537767_1_alg».proof.Proof.Gen.KernelIdeal.Frame
import proofs.«134024_j54168127537767_1_alg».proof.Proof.Gen.ReferenceIdeal
import proofs.«134024_j54168127537767_1_alg».proof.Proof.Gen.Pre_finite_inputs
import proofs.«134024_j54168127537767_1_alg».proof.Proof.Gen.KernelIdeal.Value
import proofs.«134024_j54168127537767_1_alg».proof.Proof.Gen.ReferenceIdeal.Run
import proofs.«134024_j54168127537767_1_alg».proof.Proof.Gen.ReferenceIdeal.Read
import proofs.«134024_j54168127537767_1_alg».proof.Proof.Reference
import proofs.«134024_j54168127537767_1_alg».proof.Proof.Kernel
import Idealize.ShloMosaic.Adequacy
import Idealize.ShloMosaic.Init

noncomputable section

namespace Cert.Proof

open Idealize.ShloMosaic Idealize.SL.Sem

/-- Each program terminates without a fault and leaves its arguments as launched: the kernel programs by
    their pipeline runs, the reference by its straight-line run. -/
theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the five arguments both programs end with the result array at `G` of the
    arguments: the kernel by its run over the grid, the reference by its run read stage by stage. -/
theorem algebraic : Cert.algebraic_KernelIdeal_ReferenceIdeal := by
  intro m ρ m' ρ' _ hagree
  refine ⟨_, Cert.WindowAttention.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq, Cert.WindowAttention.Reference.result_eq_G,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
